-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_arg9 : FVec F S128x40 .f32) (main_arg10 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg2 main_v44
  let main_c_17 : IVec S_ 32 := constantI S_ 32 512#32
  let main_v46 : IVec S100000 32 := broadcastInDim S100000 ![] bcast_S_S100000 main_c_17
  let main_v47 : IVec S100000 1 := cmpi .slt main_arg2 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg2 : IVec S100000 32) (main_arg6 : FVec F S3x128 .f32) (main_arg7 : FVec F S3x128 .f32) (main_arg8 : FVec F S3x128 .f32) (main_arg9 : FVec F S128x40 .f32) (main_arg10 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg2 main_arg9 main_arg10 main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S128x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg2 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S1600000x128 : Shape := ⟨2, ![1600000, 128]⟩
abbrev S512x128 : Shape := ⟨2, ![512, 128]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩
abbrev S512x40 : Shape := ⟨2, ![512, 40]⟩
abbrev S1x40 : Shape := ⟨2, ![1, 40]⟩

abbrev nBuf : Space → Nat
  | .hbm => 189
  | .vmem => 47
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S100000x1, .i32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S100000, .f32⟩
  | 53 => ⟨S1x128x128, .f32⟩
  | 54 => ⟨S128x128, .f32⟩
  | 55 => ⟨S1x128, .f32⟩
  | 56 => ⟨S128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S100000x128, .f32⟩
  | 81 => ⟨S100000x1, .f32⟩
  | 82 => ⟨S100000x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S100000x128, .f32⟩
  | 94 => ⟨S1x128x128, .f32⟩
  | 95 => ⟨S128x128, .f32⟩
  | 96 => ⟨S1x128, .f32⟩
  | 97 => ⟨S128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S100000x128, .f32⟩
  | 7 => ⟨S1x128x128, .f32⟩
  | 8 => ⟨S128x128, .f32⟩
  | 9 => ⟨S1x128, .f32⟩
  | 10 => ⟨S128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x1, .f32⟩
  | 22 => ⟨S1600000x128, .f32⟩
  | 23 => ⟨S1600000x128, .f32⟩
  | 24 => ⟨S_, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S100000x128, .f32⟩
  | 35 => ⟨S100000x1, .f32⟩
  | 36 => ⟨S100000x128, .f32⟩
  | 37 => ⟨S100000x128, .f32⟩
  | 38 => ⟨S100000x128, .f32⟩
  | 39 => ⟨S100000x128, .f32⟩
  | 40 => ⟨S512x128, .f32⟩
  | 41 => ⟨S_, .f32⟩
  | 42 => ⟨S512, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S_, .f32⟩
  | 52 => ⟨S100000, .f32⟩
  | 53 => ⟨S512, .f32⟩
  | 54 => ⟨S_, .f32⟩
  | 55 => ⟨S512, .f32⟩
  | 56 => ⟨S512, .f32⟩
  | 57 => ⟨S512x1, .f32⟩
  | 58 => ⟨S512x128, .f32⟩
  | 59 => ⟨S512x128, .f32⟩
  | 60 => ⟨S512x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128, .f32⟩
  | .local _ .vmem, ⟨36, _⟩ => ⟨S2000x128, .f32⟩
  | .local _ .vmem, ⟨37, _⟩ => ⟨S2000x128, .f32⟩
  | .local _ .vmem, ⟨38, _⟩ => ⟨S2000x1, .i32⟩
  | .local _ .vmem, ⟨39, _⟩ => ⟨S2000x1, .i32⟩
  | .local _ .vmem, ⟨40, _⟩ => ⟨S2000x128, .f32⟩
  | .local _ .vmem, ⟨41, _⟩ => ⟨S2000x128, .f32⟩
  | .local _ .vmem, ⟨42, _⟩ => ⟨S512x128, .f32⟩
  | .local _ .vmem, ⟨43, _⟩ => ⟨S512x128, .f32⟩
  | .local _ .vmem, ⟨44, _⟩ => ⟨S128x40, .f32⟩
  | .local _ .vmem, ⟨45, _⟩ => ⟨S40, .f32⟩
  | .local _ .vmem, ⟨46, _⟩ => ⟨S512x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_c_15 : Ref sig .tc := ⟨.hbm, 113, rfl⟩
abbrev main_v85 : Ref sig .tc := ⟨.hbm, 114, rfl⟩
abbrev main_v86 : Ref sig .tc := ⟨.hbm, 115, rfl⟩
abbrev main_c_16 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_17 : Ref sig .tc := ⟨.hbm, 140, rfl⟩
abbrev main_v110 : Ref sig .tc := ⟨.hbm, 141, rfl⟩
abbrev main_v111 : Ref sig .tc := ⟨.hbm, 142, rfl⟩
abbrev main_c_18 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_19 : Ref sig .tc := ⟨.hbm, 152, rfl⟩
abbrev main_v120 : Ref sig .tc := ⟨.hbm, 153, rfl⟩
abbrev main_c_20 : Ref sig .tc := ⟨.hbm, 154, rfl⟩
abbrev main_v121 : Ref sig .tc := ⟨.hbm, 155, rfl⟩
abbrev main_v122 : Ref sig .tc := ⟨.hbm, 156, rfl⟩
abbrev main_c_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_22 : Ref sig .tc := ⟨.hbm, 169, rfl⟩
abbrev main_v134 : Ref sig .tc := ⟨.hbm, 170, rfl⟩
abbrev main_c_23 : Ref sig .tc := ⟨.hbm, 171, rfl⟩
abbrev main_v135 : Ref sig .tc := ⟨.hbm, 172, rfl⟩
abbrev main_v136 : Ref sig .tc := ⟨.hbm, 173, rfl⟩
abbrev main_c_24 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_25 : Ref sig .tc := ⟨.hbm, 179, rfl⟩
abbrev main_v141 : Ref sig .tc := ⟨.hbm, 180, rfl⟩
abbrev main_v142 : Ref sig .tc := ⟨.hbm, 181, rfl⟩
abbrev main_cst_26 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc7_sem0_0 : DmaSem sig := 43
abbrev cc7_sem1_0 : DmaSem sig := 44
abbrev cc7_sem2_0 : DmaSem sig := 45
abbrev cc7_sem3_0 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S512x40 : S1x40.Broadcasts S512x40
  inb_S512x40_S512x40_0_0 : ∀ a, (![0, 0] : Fin 2 → Nat) a + S512x40.size a ≤ S512x40.size a
  h_S512x40 : 0 < S512x40.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x512_S2000x128_S512x128_0_0_1_1_n_n_wf : DotDims.WF S2000x512 S2000x128 S512x128 [0] [0] [1] [1] [] []
  scatter_S512_S100000x1_S100000_n_0_0_1_wf : ScatterDims.WF S512 S100000x1 S100000 [] [0] [0] 1
  dot_S512x128_S128x40_S512x40_1_0_0_1_n_n_wf : DotDims.WF S512x128 S128x40 S512x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1.size a ≤ S100000x1.size a
  hwx6_0 : ∀ i : grid6.Coords, EltTy.bits .i32 = 32 ∨ (Rect.block (s := S100000x1) S2000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x128.size a ≤ S512x128.size a
  hwx6_2 : ∀ i : grid6.Coords, EltTy.bits .f32 = 32 ∨ (Rect.block (s := S512x128) S512x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x40.size a ≤ S128x40.size a
  hwx7_1 : ∀ i : grid7.Coords, EltTy.bits .f32 = 32 ∨ (Rect.block (s := S128x40) S128x40.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S40.size a ≤ S40.size a
  hwx7_2 : ∀ i : grid7.Coords, EltTy.bits .f32 = 32 ∨ (Rect.block (s := S40) S40.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x40.size a ≤ S512x40.size a
  hwx7_3 : ∀ i : grid7.Coords, EltTy.bits .f32 = 32 ∨ (Rect.block (s := S512x40) S512x40.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x40_S512x40_1_0_0_1_n_n : DotDims S512x128 S128x40 S512x40 where
  lhsContracting := [1]
  rhsContracting := [0]
  lhsNonContracting := [0]
  rhsNonContracting := [1]
  lhsBatch := []
  rhsBatch := []
  wf := dot_S512x128_S128x40_S512x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v68) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v95) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v101) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v104) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v109) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v131) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v132) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v4) S2000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v132) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S512x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v147) S512x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v148) S512x40.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S512x128 : Shape := ⟨2, ![512, 128]⟩
abbrev S512 : Shape := ⟨1, ![512]⟩
abbrev S512x1 : Shape := ⟨2, ![512, 1]⟩
abbrev S512x40 : Shape := ⟨2, ![512, 40]⟩
abbrev S1x40 : Shape := ⟨2, ![1, 40]⟩

abbrev nBuf : Space → Nat
  | .hbm => 315
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S1x128x128, .f32⟩
  | 16 => ⟨S128x128, .f32⟩
  | 17 => ⟨S1x128, .f32⟩
  | 18 => ⟨S128, .f32⟩
  | 19 => ⟨S100000x128, .f32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x1, .f32⟩
  | 66 => ⟨S1600000x128, .f32⟩
  | 67 => ⟨S1600000x128, .f32⟩
  | 68 => ⟨S_, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S100000x128, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S128, .f32⟩
  | 94 => ⟨S1x128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128x128, .f32⟩
  | 113 => ⟨S128x128, .f32⟩
  | 114 => ⟨S1x128, .f32⟩
  | 115 => ⟨S128, .f32⟩
  | 116 => ⟨S100000x128, .f32⟩
  | 117 => ⟨S_, .f32⟩
  | 118 => ⟨S100000, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S_, .f32⟩
  | _ => ⟨S100000x128, .f32⟩

abbrev hbmTy0_1 (i : Nat) : BufTy := match i % 128 with
  | 0 => ⟨S1600000, .f32⟩
  | 1 => ⟨S100000, .f32⟩
  | 2 => ⟨S_, .f32⟩
  | 3 => ⟨S100000, .f32⟩
  | 4 => ⟨S100000, .f32⟩
  | 5 => ⟨S100000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S1600000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1600000x1, .f32⟩
  | 35 => ⟨S1600000x128, .f32⟩
  | 36 => ⟨S1600000x128, .f32⟩
  | 37 => ⟨S_, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S100000x128, .f32⟩
  | 48 => ⟨S100000, .f32⟩
  | 49 => ⟨S100000x1, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S1x128x128, .f32⟩
  | 82 => ⟨S128x128, .f32⟩
  | 83 => ⟨S1x128, .f32⟩
  | 84 => ⟨S128, .f32⟩
  | 85 => ⟨S100000x128, .f32⟩
  | 86 => ⟨S_, .f32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S_, .f32⟩
  | 97 => ⟨S1600000, .f32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000x128, .f32⟩
  | 3 => ⟨S1600000x1, .f32⟩
  | 4 => ⟨S1600000x128, .f32⟩
  | 5 => ⟨S1600000x128, .f32⟩
  | 6 => ⟨S_, .f32⟩
  | 7 => ⟨S100000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S100000x128, .f32⟩
  | 17 => ⟨S100000, .f32⟩
  | 18 => ⟨S100000x1, .f32⟩
  | 19 => ⟨S100000x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S512x128, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S512x128, .f32⟩
  | 36 => ⟨S_, .f32⟩
  | 37 => ⟨S512, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S_, .f32⟩
  | 47 => ⟨S100000, .f32⟩
  | 48 => ⟨S512, .f32⟩
  | 49 => ⟨S_, .f32⟩
  | 50 => ⟨S512, .f32⟩
  | 51 => ⟨S512, .f32⟩
  | 52 => ⟨S512x1, .f32⟩
  | 53 => ⟨S512x128, .f32⟩
  | 54 => ⟨S512x128, .f32⟩
  | 55 => ⟨S512x40, .f32⟩
  | 56 => ⟨S1x40, .f32⟩
  | 57 => ⟨S512x40, .f32⟩
  | 58 => ⟨S512x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call0_cst : Ref sig .tc := ⟨.hbm, 109, rfl⟩
abbrev main_call0_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_c_14 : Ref sig .tc := ⟨.hbm, 119, rfl⟩
abbrev main_v90 : Ref sig .tc := ⟨.hbm, 120, rfl⟩
abbrev main_v91 : Ref sig .tc := ⟨.hbm, 121, rfl⟩
abbrev main_c_15 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_18 : Ref sig .tc := ⟨.hbm, 134, rfl⟩
abbrev main_v101 : Ref sig .tc := ⟨.hbm, 135, rfl⟩
abbrev main_v102 : Ref sig .tc := ⟨.hbm, 136, rfl⟩
abbrev main_c_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_20 : Ref sig .tc := ⟨.hbm, 143, rfl⟩
abbrev main_v108 : Ref sig .tc := ⟨.hbm, 144, rfl⟩
abbrev main_v109 : Ref sig .tc := ⟨.hbm, 145, rfl⟩
abbrev main_c_21 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_22 : Ref sig .tc := ⟨.hbm, 153, rfl⟩
abbrev main_v116 : Ref sig .tc := ⟨.hbm, 154, rfl⟩
abbrev main_v117 : Ref sig .tc := ⟨.hbm, 155, rfl⟩
abbrev main_c_23 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_24 : Ref sig .tc := ⟨.hbm, 165, rfl⟩
abbrev main_v126 : Ref sig .tc := ⟨.hbm, 166, rfl⟩
abbrev main_c_25 : Ref sig .tc := ⟨.hbm, 167, rfl⟩
abbrev main_v127 : Ref sig .tc := ⟨.hbm, 168, rfl⟩
abbrev main_v128 : Ref sig .tc := ⟨.hbm, 169, rfl⟩
abbrev main_c_26 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_27 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_call1_cst : Ref sig .tc := ⟨.hbm, 206, rfl⟩
abbrev main_call1_v0 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_28 : Ref sig .tc := ⟨.hbm, 214, rfl⟩
abbrev main_v169 : Ref sig .tc := ⟨.hbm, 215, rfl⟩
abbrev main_c_29 : Ref sig .tc := ⟨.hbm, 216, rfl⟩
abbrev main_v170 : Ref sig .tc := ⟨.hbm, 217, rfl⟩
abbrev main_v171 : Ref sig .tc := ⟨.hbm, 218, rfl⟩
abbrev main_c_30 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_31 : Ref sig .tc := ⟨.hbm, 224, rfl⟩
abbrev main_v176 : Ref sig .tc := ⟨.hbm, 225, rfl⟩
abbrev main_v177 : Ref sig .tc := ⟨.hbm, 226, rfl⟩
abbrev main_cst_32 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_c_33 : Ref sig .tc := ⟨.hbm, 231, rfl⟩
abbrev main_v181 : Ref sig .tc := ⟨.hbm, 232, rfl⟩
abbrev main_v182 : Ref sig .tc := ⟨.hbm, 233, rfl⟩
abbrev main_c_34 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_c_35 : Ref sig .tc := ⟨.hbm, 240, rfl⟩
abbrev main_v188 : Ref sig .tc := ⟨.hbm, 241, rfl⟩
abbrev main_v189 : Ref sig .tc := ⟨.hbm, 242, rfl⟩
abbrev main_c_36 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_c_37 : Ref sig .tc := ⟨.hbm, 250, rfl⟩
abbrev main_v196 : Ref sig .tc := ⟨.hbm, 251, rfl⟩
abbrev main_v197 : Ref sig .tc := ⟨.hbm, 252, rfl⟩
abbrev main_c_38 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_39 : Ref sig .tc := ⟨.hbm, 262, rfl⟩
abbrev main_v206 : Ref sig .tc := ⟨.hbm, 263, rfl⟩
abbrev main_c_40 : Ref sig .tc := ⟨.hbm, 264, rfl⟩
abbrev main_v207 : Ref sig .tc := ⟨.hbm, 265, rfl⟩
abbrev main_v208 : Ref sig .tc := ⟨.hbm, 266, rfl⟩
abbrev main_c_41 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_cst_42 : Ref sig .tc := ⟨.hbm, 281, rfl⟩
abbrev main_v222 : Ref sig .tc := ⟨.hbm, 282, rfl⟩
abbrev main_c_43 : Ref sig .tc := ⟨.hbm, 283, rfl⟩
abbrev main_v223 : Ref sig .tc := ⟨.hbm, 284, rfl⟩
abbrev main_v224 : Ref sig .tc := ⟨.hbm, 285, rfl⟩
abbrev main_c_44 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_45 : Ref sig .tc := ⟨.hbm, 292, rfl⟩
abbrev main_v230 : Ref sig .tc := ⟨.hbm, 293, rfl⟩
abbrev main_c_46 : Ref sig .tc := ⟨.hbm, 294, rfl⟩
abbrev main_v231 : Ref sig .tc := ⟨.hbm, 295, rfl⟩
abbrev main_v232 : Ref sig .tc := ⟨.hbm, 296, rfl⟩
abbrev main_c_47 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_cst_48 : Ref sig .tc := ⟨.hbm, 302, rfl⟩
abbrev main_v237 : Ref sig .tc := ⟨.hbm, 303, rfl⟩
abbrev main_v238 : Ref sig .tc := ⟨.hbm, 304, rfl⟩
abbrev main_cst_49 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S40_S1x40_1 : S40.BroadcastsInDim S1x40 (![1] : Fin 1 → Fin S1x40.rank)
  bcast_S1x40_S512x40_0_1 : S1x40.BroadcastsInDim S512x40 (![0, 1] : Fin 2 → Fin S512x40.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x40_S512x40_1_0_0_1_n_n_wf : DotDims.WF S512x128 S128x40 S512x40 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x40_S512x40_1_0_0_1_n_n : DotDims S512x128 S128x40 S512x40 where
  lhsContracting := [1]
  rhsContracting := [0]
  lhsNonContracting := [0]
  rhsNonContracting := [1]
  lhsBatch := []
  rhsBatch := []
  wf := dot_S512x128_S128x40_S512x40_1_0_0_1_n_n_wf

class Facts : Prop extends Facts₀ where

variable [Facts]
-- ==== Proof.PreDecode.lean ====
/-
  What the precondition says about the graph ids: the added conjunct `all((batch ≥ 0) & (batch < 512))` is the last
  factor of the printed predicate's conjunction, a reduction by `and` over all 100000 entries of the entrywise conjunction
  of two signed comparisons; where the predicate is one, every entry, read as a signed integer, lies in [0, 512).
-/
import proofs.«424323_j36094905155901_2_alg».proof.Defs
import Idealize.ShloMosaic.Lib.ReduceAll
import Idealize.ShloMosaic.Lib.Affine
import Idealize.ShloMosaic.Lib.ValueIdx
import Idealize.ShloMosaic.Lib.Pipeline.Value

noncomputable section

namespace Cert.PreDecode

open Idealize.ShloMosaic Idealize.ShloMosaic.ValueIdx Cert.Pre_finite_inputs

instance : Subsingleton S_.Idx := ⟨fun a b => funext fun d => d.elim0⟩

variable [Cert.Pre_finite_inputs.Facts]

/-- Every graph id is in range. -/
theorem batch_range (a0 : FVec Ideal S100000x128 .f32) (a1 : IVec S2x1600000 32) (a2 : IVec S100000 32)
    (a3 : FVec Ideal S3x128x128 .f32) (a4 a5 a6 a7 a8 : FVec Ideal S3x128 .f32) (a9 : FVec Ideal S128x40 .f32)
    (a10 : FVec Ideal S40 .f32)
    (h : Cert.Pre_finite_inputs.fn (F := Ideal) a0 a1 a2 a3 a4 a5 a6 a7 a8 a9 a10 = fun _ => 1#1) (r : Fin 100000) :
    0 ≤ (a2 (ix1 r)).toInt ∧ (a2 (ix1 r)).toInt < 512 := by
  have h0 := congrFun h ValueIdx.ix0
  dsimp only [Cert.Pre_finite_inputs.fn, Cert.Pre_finite_inputs.fn_part1, Cert.Pre_finite_inputs.fn_part2] at h0
  have h1 := (IntOp.andi_eq_one.mp h0).2
  have h2 := Host.reduce_andi_all _ _ _ _ _ h1 (ix1 r)
  obtain ⟨h3, h4⟩ := IntOp.andi_eq_one.mp h2
  have h5 := IntOp.cmpi_sge.mp h3
  have h6 := IntOp.cmpi_slt.mp h4
  change (0#32 : BitVec 32).toInt ≤ _ at h5
  change _ < (512#32 : BitVec 32).toInt at h6
  have e0 : (0#32 : BitVec 32).toInt = 0 := by decide
  have e1 : (512#32 : BitVec 32).toInt = 512 := by decide
  rw [e0] at h5
  rw [e1] at h6
  exact ⟨h5, h6⟩

end Cert.PreDecode

end
-- ==== Proof.KHost1.lean ====
/-
  The kernel program's host side, first part: what the buffers hold at the boundaries of @main's first segments,
  written with the reference's own stages (each stage is one host operation's value as a function of the arguments).
  Both programs apply the same host operations to the graph structure (source and destination rows, the degree
  normalisation) and to the parameter tensors (one slice per layer), so these are equalities of terms built from the same
  operations; only the matrix products and the elementwise epilogues are computed differently, and they enter here as
  hypotheses about one buffer.
-/
import proofs.«424323_j36094905155901_2_alg».proof.Proof.Gen.KernelIdeal.Frame
import proofs.«424323_j36094905155901_2_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Read

/-- A stretch of host operations leaves a buffer alone when none of them writes it. -/
macro "hstep" ops:ident : tactic => `(tactic| exact StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

variable {F : FTy → Type} [FloatOps F]

/-! ## The reference recomputes the graph normalisation in every layer: one term -/

section
variable (x1 : (⟨Cert.ReferenceIdeal.S2x1600000, .i32⟩ : BufTy).Contents (Elt F))
/-- The edge normalisation `dinv[src] · dinv[dst]` of the second and third layers is the first layer's. -/
theorem norm2 : val_main_v115 (F := F) x1 = val_main_v35 (F := F) x1 := rfl
theorem norm3 : val_main_v195 (F := F) x1 = val_main_v35 (F := F) x1 := rfl
/-- The self-loop coefficient `dinv · dinv`, likewise. -/
theorem self2 : val_main_v134 (F := F) x1 = val_main_v54 (F := F) x1 := rfl
theorem self3 : val_main_v214 (F := F) x1 = val_main_v54 (F := F) x1 := rfl
end

variable (m : (ℓ : Loc nD τ sig) → Buf (Elt F) ℓ) (ρ : Dev nD → PrngReg) (c : Dev nD)

/-! ## After the first stretch: the graph structure, the first layer's weight and bias -/

theorem W1_arg0 : W1 m ρ c (Proc.devRef .tc main_arg0) = (m ((c : Thread nD τ).loc main_arg0)) := by hstep hostOps0
theorem W1_v1 : W1 m ρ c (Proc.devRef .tc main_v1) = val_main_v1 (m ((c : Thread nD τ).loc main_arg1)) := by
  dsimp only [W1, hostOps0]; after_results_simp; rfl
theorem W1_v3 : W1 m ρ c (Proc.devRef .tc main_v3) = val_main_v3 (m ((c : Thread nD τ).loc main_arg1)) := by
  dsimp only [W1, hostOps0]; after_results_simp; rfl
theorem W1_v34 : W1 m ρ c (Proc.devRef .tc main_v34) = val_main_v5 (m ((c : Thread nD τ).loc main_arg3)) := by
  dsimp only [W1, hostOps0]; after_results_simp; rfl
theorem W1_v36 : W1 m ρ c (Proc.devRef .tc main_v36) = val_main_v7 (m ((c : Thread nD τ).loc main_arg4)) := by
  dsimp only [W1, hostOps0]; after_results_simp; rfl
set_option maxHeartbeats 4000000 in
/-- The edge normalisation `dinv[src] · dinv[dst]`. -/
theorem W1_v31 : W1 m ρ c (Proc.devRef .tc main_v31) = val_main_v35 (m ((c : Thread nD τ).loc main_arg1)) := by
  dsimp only [W1, hostOps0]; after_results_simp; rfl
set_option maxHeartbeats 4000000 in
/-- The self-loop coefficient `dinv · dinv`. -/
theorem W1_v32 : W1 m ρ c (Proc.devRef .tc main_v32) = val_main_v54 (m ((c : Thread nD τ).loc main_arg1)) := by
  dsimp only [W1, hostOps0]; after_results_simp; rfl
/-- The graph ids as a column. -/
theorem W1_v4 : W1 m ρ c (Proc.devRef .tc main_v4) = shapeCast _ (m ((c : Thread nD τ).loc main_arg2)) shapeCasts_S100000_S100000x1 := by
  dsimp only [W1, hostOps0]; after_results_simp; rfl

/-! ## Across the first product region and the second stretch: the first layer's aggregation -/

theorem W2_v1 : W2 m ρ c (Proc.devRef .tc main_v1) = val_main_v1 (m ((c : Thread nD τ).loc main_arg1)) := (W2_of_ne m ρ c main_v1 (by decide)).trans (W1_v1 m ρ c)
theorem W2_v3 : W2 m ρ c (Proc.devRef .tc main_v3) = val_main_v3 (m ((c : Thread nD τ).loc main_arg1)) := (W2_of_ne m ρ c main_v3 (by decide)).trans (W1_v3 m ρ c)
theorem W2_v31 : W2 m ρ c (Proc.devRef .tc main_v31) = val_main_v35 (m ((c : Thread nD τ).loc main_arg1)) := (W2_of_ne m ρ c main_v31 (by decide)).trans (W1_v31 m ρ c)
theorem W2_v32 : W2 m ρ c (Proc.devRef .tc main_v32) = val_main_v54 (m ((c : Thread nD τ).loc main_arg1)) := (W2_of_ne m ρ c main_v32 (by decide)).trans (W1_v32 m ρ c)
theorem W2_arg5 : W2 m ρ c (Proc.devRef .tc main_arg5) = (m ((c : Thread nD τ).loc main_arg5)) := ((W2_of_ne m ρ c main_arg5 (by decide)).trans (by hstep hostOps0 : W1 m ρ c (Proc.devRef .tc main_arg5) = W0 m ρ c (Proc.devRef .tc main_arg5)))
theorem W2_arg6 : W2 m ρ c (Proc.devRef .tc main_arg6) = (m ((c : Thread nD τ).loc main_arg6)) := ((W2_of_ne m ρ c main_arg6 (by decide)).trans (by hstep hostOps0 : W1 m ρ c (Proc.devRef .tc main_arg6) = W0 m ρ c (Proc.devRef .tc main_arg6)))
theorem W2_arg7 : W2 m ρ c (Proc.devRef .tc main_arg7) = (m ((c : Thread nD τ).loc main_arg7)) := ((W2_of_ne m ρ c main_arg7 (by decide)).trans (by hstep hostOps0 : W1 m ρ c (Proc.devRef .tc main_arg7) = W0 m ρ c (Proc.devRef .tc main_arg7)))
theorem W2_arg8 : W2 m ρ c (Proc.devRef .tc main_arg8) = (m ((c : Thread nD τ).loc main_arg8)) := ((W2_of_ne m ρ c main_arg8 (by decide)).trans (by hstep hostOps0 : W1 m ρ c (Proc.devRef .tc main_arg8) = W0 m ρ c (Proc.devRef .tc main_arg8)))

set_option maxHeartbeats 4000000 in
/-- The first layer's aggregated messages plus the self-loop term: the same gather, scaling, scatter-add and sum
    applied to the product array, whichever way the product was computed. -/
theorem W3_v59 (h37 : W2 m ρ c (Proc.devRef .tc main_v37) = val_main_v8 (m ((c : Thread nD τ).loc main_arg0)) (m ((c : Thread nD τ).loc main_arg3))) :
    W3 m ρ c (Proc.devRef .tc main_v59) = val_main_v58 (m ((c : Thread nD τ).loc main_arg0)) (m ((c : Thread nD τ).loc main_arg1)) (m ((c : Thread nD τ).loc main_arg3)) := by
  dsimp only [W3, hostOps1]; after_results_simp
  rw [h37, W2_v1, W2_v3, W2_v31, W2_v32]
  rfl
theorem W3_v36 : W3 m ρ c (Proc.devRef .tc main_v36) = val_main_v7 (m ((c : Thread nD τ).loc main_arg4)) := ((by hstep hostOps1 : W3 m ρ c (Proc.devRef .tc main_v36) = W2 m ρ c (Proc.devRef .tc main_v36)).trans (W2_of_ne m ρ c main_v36 (by decide))).trans (W1_v36 m ρ c)
theorem W3_v61 : W3 m ρ c (Proc.devRef .tc main_v61) = val_main_v68 (m ((c : Thread nD τ).loc main_arg5)) := by
  dsimp only [W3, hostOps1]; after_results_simp; rw [W2_arg5]; rfl
theorem W3_v63 : W3 m ρ c (Proc.devRef .tc main_v63) = val_main_v79 (m ((c : Thread nD τ).loc main_arg6)) := by
  dsimp only [W3, hostOps1]; after_results_simp; rw [W2_arg6]; rfl
theorem W3_v65 : W3 m ρ c (Proc.devRef .tc main_v65) = val_main_v63 (m ((c : Thread nD τ).loc main_arg7)) := by
  dsimp only [W3, hostOps1]; after_results_simp; rw [W2_arg7]; rfl
theorem W3_v67 : W3 m ρ c (Proc.devRef .tc main_v67) = val_main_v70 (m ((c : Thread nD τ).loc main_arg8)) := by
  dsimp only [W3, hostOps1]; after_results_simp; rw [W2_arg8]; rfl

end Cert.KernelIdeal.Host

end
-- ==== Proof.KHost2.lean ====
/-
  The kernel program's host side, second part: the second and third layers' parameter slices and aggregations, the graph
  ids carried to the pooling region, and the division of the pooled sums by the clamped node counts, each written with
  the reference's own stages. As in the first part these are equalities between terms built from the same host operations;
  what a kernel region computes enters as a hypothesis about one buffer.
-/
import proofs.«424323_j36094905155901_2_alg».proof.Proof.KHost1
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-! ## The second layer -/

theorem W4_arg3 : W4 m ρ c (Proc.devRef .tc main_arg3) = (m ((c : Thread nD τ).loc main_arg3)) := ((W4_of_ne m ρ c main_arg3 (by decide)).trans ((by hstep hostOps1 : W3 m ρ c (Proc.devRef .tc main_arg3) = W2 m ρ c (Proc.devRef .tc main_arg3)).trans ((W2_of_ne m ρ c main_arg3 (by decide)).trans (by hstep hostOps0 : W1 m ρ c (Proc.devRef .tc main_arg3) = W0 m ρ c (Proc.devRef .tc main_arg3)))))
theorem W4_arg4 : W4 m ρ c (Proc.devRef .tc main_arg4) = (m ((c : Thread nD τ).loc main_arg4)) := ((W4_of_ne m ρ c main_arg4 (by decide)).trans ((by hstep hostOps1 : W3 m ρ c (Proc.devRef .tc main_arg4) = W2 m ρ c (Proc.devRef .tc main_arg4)).trans ((W2_of_ne m ρ c main_arg4 (by decide)).trans (by hstep hostOps0 : W1 m ρ c (Proc.devRef .tc main_arg4) = W0 m ρ c (Proc.devRef .tc main_arg4)))))
theorem W5_v70 : W5 m ρ c (Proc.devRef .tc main_v70) = val_main_v85 (m ((c : Thread nD τ).loc main_arg3)) := by
  dsimp only [W5, hostOps2]; after_results_simp; rw [W4_arg3]; rfl
theorem W5_v72 : W5 m ρ c (Proc.devRef .tc main_v72) = val_main_v87 (m ((c : Thread nD τ).loc main_arg4)) := by
  dsimp only [W5, hostOps2]; after_results_simp; rw [W4_arg4]; rfl
/-- The first layer's output passes the third stretch untouched. -/
theorem W5_v68 : W5 m ρ c (Proc.devRef .tc main_v68) = W4 m ρ c (Proc.devRef .tc main_v68) := by hstep hostOps2

theorem W6_v1 : W6 m ρ c (Proc.devRef .tc main_v1) = val_main_v1 (m ((c : Thread nD τ).loc main_arg1)) := ((W6_of_ne m ρ c main_v1 (by decide)).trans ((by hstep hostOps2 : W5 m ρ c (Proc.devRef .tc main_v1) = W4 m ρ c (Proc.devRef .tc main_v1)).trans ((W4_of_ne m ρ c main_v1 (by decide)).trans (by hstep hostOps1 : W3 m ρ c (Proc.devRef .tc main_v1) = W2 m ρ c (Proc.devRef .tc main_v1))))).trans (W2_v1 m ρ c)
theorem W6_v3 : W6 m ρ c (Proc.devRef .tc main_v3) = val_main_v3 (m ((c : Thread nD τ).loc main_arg1)) := ((W6_of_ne m ρ c main_v3 (by decide)).trans ((by hstep hostOps2 : W5 m ρ c (Proc.devRef .tc main_v3) = W4 m ρ c (Proc.devRef .tc main_v3)).trans ((W4_of_ne m ρ c main_v3 (by decide)).trans (by hstep hostOps1 : W3 m ρ c (Proc.devRef .tc main_v3) = W2 m ρ c (Proc.devRef .tc main_v3))))).trans (W2_v3 m ρ c)
theorem W6_v31 : W6 m ρ c (Proc.devRef .tc main_v31) = val_main_v115 (m ((c : Thread nD τ).loc main_arg1)) := (((W6_of_ne m ρ c main_v31 (by decide)).trans ((by hstep hostOps2 : W5 m ρ c (Proc.devRef .tc main_v31) = W4 m ρ c (Proc.devRef .tc main_v31)).trans ((W4_of_ne m ρ c main_v31 (by decide)).trans (by hstep hostOps1 : W3 m ρ c (Proc.devRef .tc main_v31) = W2 m ρ c (Proc.devRef .tc main_v31))))).trans (W2_v31 m ρ c)).trans (norm2 _).symm
theorem W6_v32 : W6 m ρ c (Proc.devRef .tc main_v32) = val_main_v134 (m ((c : Thread nD τ).loc main_arg1)) := (((W6_of_ne m ρ c main_v32 (by decide)).trans ((by hstep hostOps2 : W5 m ρ c (Proc.devRef .tc main_v32) = W4 m ρ c (Proc.devRef .tc main_v32)).trans ((W4_of_ne m ρ c main_v32 (by decide)).trans (by hstep hostOps1 : W3 m ρ c (Proc.devRef .tc main_v32) = W2 m ρ c (Proc.devRef .tc main_v32))))).trans (W2_v32 m ρ c)).trans (self2 _).symm
theorem W6_arg5 : W6 m ρ c (Proc.devRef .tc main_arg5) = (m ((c : Thread nD τ).loc main_arg5)) := ((W6_of_ne m ρ c main_arg5 (by decide)).trans ((by hstep hostOps2 : W5 m ρ c (Proc.devRef .tc main_arg5) = W4 m ρ c (Proc.devRef .tc main_arg5)).trans ((W4_of_ne m ρ c main_arg5 (by decide)).trans (by hstep hostOps1 : W3 m ρ c (Proc.devRef .tc main_arg5) = W2 m ρ c (Proc.devRef .tc main_arg5))))).trans (W2_arg5 m ρ c)
theorem W6_arg6 : W6 m ρ c (Proc.devRef .tc main_arg6) = (m ((c : Thread nD τ).loc main_arg6)) := ((W6_of_ne m ρ c main_arg6 (by decide)).trans ((by hstep hostOps2 : W5 m ρ c (Proc.devRef .tc main_arg6) = W4 m ρ c (Proc.devRef .tc main_arg6)).trans ((W4_of_ne m ρ c main_arg6 (by decide)).trans (by hstep hostOps1 : W3 m ρ c (Proc.devRef .tc main_arg6) = W2 m ρ c (Proc.devRef .tc main_arg6))))).trans (W2_arg6 m ρ c)
theorem W6_arg7 : W6 m ρ c (Proc.devRef .tc main_arg7) = (m ((c : Thread nD τ).loc main_arg7)) := ((W6_of_ne m ρ c main_arg7 (by decide)).trans ((by hstep hostOps2 : W5 m ρ c (Proc.devRef .tc main_arg7) = W4 m ρ c (Proc.devRef .tc main_arg7)).trans ((W4_of_ne m ρ c main_arg7 (by decide)).trans (by hstep hostOps1 : W3 m ρ c (Proc.devRef .tc main_arg7) = W2 m ρ c (Proc.devRef .tc main_arg7))))).trans (W2_arg7 m ρ c)
theorem W6_arg8 : W6 m ρ c (Proc.devRef .tc main_arg8) = (m ((c : Thread nD τ).loc main_arg8)) := ((W6_of_ne m ρ c main_arg8 (by decide)).trans ((by hstep hostOps2 : W5 m ρ c (Proc.devRef .tc main_arg8) = W4 m ρ c (Proc.devRef .tc main_arg8)).trans ((W4_of_ne m ρ c main_arg8 (by decide)).trans (by hstep hostOps1 : W3 m ρ c (Proc.devRef .tc main_arg8) = W2 m ρ c (Proc.devRef .tc main_arg8))))).trans (W2_arg8 m ρ c)

set_option maxHeartbeats 4000000 in
/-- The second layer's aggregation, given the second product array. -/
theorem W7_v95 (h73 : W6 m ρ c (Proc.devRef .tc main_v73) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W7 m ρ c (Proc.devRef .tc main_v95) = val_main_v138 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W7, hostOps3]; after_results_simp
  rw [h73, W6_v1, W6_v3, W6_v31, W6_v32]
  rfl
theorem W7_v72 : W7 m ρ c (Proc.devRef .tc main_v72) = val_main_v87 (m ((c : Thread nD τ).loc main_arg4)) := ((by hstep hostOps3 : W7 m ρ c (Proc.devRef .tc main_v72) = W6 m ρ c (Proc.devRef .tc main_v72)).trans (W6_of_ne m ρ c main_v72 (by decide))).trans (W5_v72 m ρ c)
theorem W7_v97 : W7 m ρ c (Proc.devRef .tc main_v97) = val_main_v148 (m ((c : Thread nD τ).loc main_arg5)) := by
  dsimp only [W7, hostOps3]; after_results_simp; rw [W6_arg5]; rfl
theorem W7_v99 : W7 m ρ c (Proc.devRef .tc main_v99) = val_main_v159 (m ((c : Thread nD τ).loc main_arg6)) := by
  dsimp only [W7, hostOps3]; after_results_simp; rw [W6_arg6]; rfl
theorem W7_v101 : W7 m ρ c (Proc.devRef .tc main_v101) = val_main_v143 (m ((c : Thread nD τ).loc main_arg7)) := by
  dsimp only [W7, hostOps3]; after_results_simp; rw [W6_arg7]; rfl
theorem W7_v103 : W7 m ρ c (Proc.devRef .tc main_v103) = val_main_v150 (m ((c : Thread nD τ).loc main_arg8)) := by
  dsimp only [W7, hostOps3]; after_results_simp; rw [W6_arg8]; rfl

/-! ## The third layer -/

theorem W8_arg3 : W8 m ρ c (Proc.devRef .tc main_arg3) = (m ((c : Thread nD τ).loc main_arg3)) := ((W8_of_ne m ρ c main_arg3 (by decide)).trans ((by hstep hostOps3 : W7 m ρ c (Proc.devRef .tc main_arg3) = W6 m ρ c (Proc.devRef .tc main_arg3)).trans ((W6_of_ne m ρ c main_arg3 (by decide)).trans (by hstep hostOps2 : W5 m ρ c (Proc.devRef .tc main_arg3) = W4 m ρ c (Proc.devRef .tc main_arg3))))).trans (W4_arg3 m ρ c)
theorem W8_arg4 : W8 m ρ c (Proc.devRef .tc main_arg4) = (m ((c : Thread nD τ).loc main_arg4)) := ((W8_of_ne m ρ c main_arg4 (by decide)).trans ((by hstep hostOps3 : W7 m ρ c (Proc.devRef .tc main_arg4) = W6 m ρ c (Proc.devRef .tc main_arg4)).trans ((W6_of_ne m ρ c main_arg4 (by decide)).trans (by hstep hostOps2 : W5 m ρ c (Proc.devRef .tc main_arg4) = W4 m ρ c (Proc.devRef .tc main_arg4))))).trans (W4_arg4 m ρ c)
theorem W9_v106 : W9 m ρ c (Proc.devRef .tc main_v106) = val_main_v165 (m ((c : Thread nD τ).loc main_arg3)) := by
  dsimp only [W9, hostOps4]; after_results_simp; rw [W8_arg3]; rfl
theorem W9_v108 : W9 m ρ c (Proc.devRef .tc main_v108) = val_main_v167 (m ((c : Thread nD τ).loc main_arg4)) := by
  dsimp only [W9, hostOps4]; after_results_simp; rw [W8_arg4]; rfl
theorem W9_v104 : W9 m ρ c (Proc.devRef .tc main_v104) = W8 m ρ c (Proc.devRef .tc main_v104) := by hstep hostOps4

theorem W10_v1 : W10 m ρ c (Proc.devRef .tc main_v1) = val_main_v1 (m ((c : Thread nD τ).loc main_arg1)) := ((W10_of_ne m ρ c main_v1 (by decide)).trans ((by hstep hostOps4 : W9 m ρ c (Proc.devRef .tc main_v1) = W8 m ρ c (Proc.devRef .tc main_v1)).trans ((W8_of_ne m ρ c main_v1 (by decide)).trans (by hstep hostOps3 : W7 m ρ c (Proc.devRef .tc main_v1) = W6 m ρ c (Proc.devRef .tc main_v1))))).trans (W6_v1 m ρ c)
theorem W10_v3 : W10 m ρ c (Proc.devRef .tc main_v3) = val_main_v3 (m ((c : Thread nD τ).loc main_arg1)) := ((W10_of_ne m ρ c main_v3 (by decide)).trans ((by hstep hostOps4 : W9 m ρ c (Proc.devRef .tc main_v3) = W8 m ρ c (Proc.devRef .tc main_v3)).trans ((W8_of_ne m ρ c main_v3 (by decide)).trans (by hstep hostOps3 : W7 m ρ c (Proc.devRef .tc main_v3) = W6 m ρ c (Proc.devRef .tc main_v3))))).trans (W6_v3 m ρ c)
theorem W10_v31 : W10 m ρ c (Proc.devRef .tc main_v31) = val_main_v195 (m ((c : Thread nD τ).loc main_arg1)) := ((((W10_of_ne m ρ c main_v31 (by decide)).trans ((by hstep hostOps4 : W9 m ρ c (Proc.devRef .tc main_v31) = W8 m ρ c (Proc.devRef .tc main_v31)).trans ((W8_of_ne m ρ c main_v31 (by decide)).trans (by hstep hostOps3 : W7 m ρ c (Proc.devRef .tc main_v31) = W6 m ρ c (Proc.devRef .tc main_v31))))).trans (W6_v31 m ρ c)).trans (norm2 _)).trans (norm3 _).symm
theorem W10_v32 : W10 m ρ c (Proc.devRef .tc main_v32) = val_main_v214 (m ((c : Thread nD τ).loc main_arg1)) := ((((W10_of_ne m ρ c main_v32 (by decide)).trans ((by hstep hostOps4 : W9 m ρ c (Proc.devRef .tc main_v32) = W8 m ρ c (Proc.devRef .tc main_v32)).trans ((W8_of_ne m ρ c main_v32 (by decide)).trans (by hstep hostOps3 : W7 m ρ c (Proc.devRef .tc main_v32) = W6 m ρ c (Proc.devRef .tc main_v32))))).trans (W6_v32 m ρ c)).trans (self2 _)).trans (self3 _).symm

set_option maxHeartbeats 4000000 in
/-- The third layer's aggregation, given the third product array. -/
theorem W11_v131 (h109 : W10 m ρ c (Proc.devRef .tc main_v109) = val_main_v168 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W11 m ρ c (Proc.devRef .tc main_v131) = val_main_v218 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W11, hostOps5]; after_results_simp
  rw [h109, W10_v1, W10_v3, W10_v31, W10_v32]
  rfl
theorem W11_v108 : W11 m ρ c (Proc.devRef .tc main_v108) = val_main_v167 (m ((c : Thread nD τ).loc main_arg4)) := ((by hstep hostOps5 : W11 m ρ c (Proc.devRef .tc main_v108) = W10 m ρ c (Proc.devRef .tc main_v108)).trans (W10_of_ne m ρ c main_v108 (by decide))).trans (W9_v108 m ρ c)

/-! ## Pooling and the classifier's inputs -/

/-- The graph ids, as a column, reach the pooling region as the first stretch left them. -/
theorem W12_v4 : W12 m ρ c (Proc.devRef .tc main_v4) = shapeCast _ (m ((c : Thread nD τ).loc main_arg2)) shapeCasts_S100000_S100000x1 :=
  ((W12_of_ne m ρ c main_v4 (by decide)).trans ((by hstep hostOps5 : W11 m ρ c (Proc.devRef .tc main_v4) = W10 m ρ c (Proc.devRef .tc main_v4)).trans ((W10_of_ne m ρ c main_v4 (by decide)).trans ((by hstep hostOps4 : W9 m ρ c (Proc.devRef .tc main_v4) = W8 m ρ c (Proc.devRef .tc main_v4)).trans ((W8_of_ne m ρ c main_v4 (by decide)).trans ((by hstep hostOps3 : W7 m ρ c (Proc.devRef .tc main_v4) = W6 m ρ c (Proc.devRef .tc main_v4)).trans ((W6_of_ne m ρ c main_v4 (by decide)).trans ((by hstep hostOps2 : W5 m ρ c (Proc.devRef .tc main_v4) = W4 m ρ c (Proc.devRef .tc main_v4)).trans ((W4_of_ne m ρ c main_v4 (by decide)).trans ((by hstep hostOps1 : W3 m ρ c (Proc.devRef .tc main_v4) = W2 m ρ c (Proc.devRef .tc main_v4)).trans (W2_of_ne m ρ c main_v4 (by decide)))))))))))).trans (W1_v4 m ρ c)
theorem W13_arg2 : W13 m ρ c (Proc.devRef .tc main_arg2) = (m ((c : Thread nD τ).loc main_arg2)) := ((W13_of_ne m ρ c main_arg2 (by decide)).trans ((W12_of_ne m ρ c main_arg2 (by decide)).trans ((by hstep hostOps5 : W11 m ρ c (Proc.devRef .tc main_arg2) = W10 m ρ c (Proc.devRef .tc main_arg2)).trans ((W10_of_ne m ρ c main_arg2 (by decide)).trans ((by hstep hostOps4 : W9 m ρ c (Proc.devRef .tc main_arg2) = W8 m ρ c (Proc.devRef .tc main_arg2)).trans ((W8_of_ne m ρ c main_arg2 (by decide)).trans ((by hstep hostOps3 : W7 m ρ c (Proc.devRef .tc main_arg2) = W6 m ρ c (Proc.devRef .tc main_arg2)).trans ((W6_of_ne m ρ c main_arg2 (by decide)).trans ((by hstep hostOps2 : W5 m ρ c (Proc.devRef .tc main_arg2) = W4 m ρ c (Proc.devRef .tc main_arg2)).trans ((W4_of_ne m ρ c main_arg2 (by decide)).trans ((by hstep hostOps1 : W3 m ρ c (Proc.devRef .tc main_arg2) = W2 m ρ c (Proc.devRef .tc main_arg2)).trans ((W2_of_ne m ρ c main_arg2 (by decide)).trans (by hstep hostOps0 : W1 m ρ c (Proc.devRef .tc main_arg2) = W0 m ρ c (Proc.devRef .tc main_arg2))))))))))))))

set_option maxHeartbeats 4000000 in
/-- The pooled means: the pooled sums divided by the node counts clamped below at one, given the pooled sums. -/
theorem W14_v147 (h133 : W13 m ρ c (Proc.devRef .tc main_v133) = val_main_v229 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W14 m ρ c (Proc.devRef .tc main_v147) = val_main_v243 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  dsimp only [W14, hostOps7]; after_results_simp
  rw [h133, W13_arg2]
  rfl
theorem W14_arg9 : W14 m ρ c (Proc.devRef .tc main_arg9) = (m ((c : Thread nD τ).loc main_arg9)) := ((by hstep hostOps7 : W14 m ρ c (Proc.devRef .tc main_arg9) = W13 m ρ c (Proc.devRef .tc main_arg9)).trans ((W13_of_ne m ρ c main_arg9 (by decide)).trans ((W12_of_ne m ρ c main_arg9 (by decide)).trans ((by hstep hostOps5 : W11 m ρ c (Proc.devRef .tc main_arg9) = W10 m ρ c (Proc.devRef .tc main_arg9)).trans ((W10_of_ne m ρ c main_arg9 (by decide)).trans ((by hstep hostOps4 : W9 m ρ c (Proc.devRef .tc main_arg9) = W8 m ρ c (Proc.devRef .tc main_arg9)).trans ((W8_of_ne m ρ c main_arg9 (by decide)).trans ((by hstep hostOps3 : W7 m ρ c (Proc.devRef .tc main_arg9) = W6 m ρ c (Proc.devRef .tc main_arg9)).trans ((W6_of_ne m ρ c main_arg9 (by decide)).trans ((by hstep hostOps2 : W5 m ρ c (Proc.devRef .tc main_arg9) = W4 m ρ c (Proc.devRef .tc main_arg9)).trans ((W4_of_ne m ρ c main_arg9 (by decide)).trans ((by hstep hostOps1 : W3 m ρ c (Proc.devRef .tc main_arg9) = W2 m ρ c (Proc.devRef .tc main_arg9)).trans ((W2_of_ne m ρ c main_arg9 (by decide)).trans (by hstep hostOps0 : W1 m ρ c (Proc.devRef .tc main_arg9) = W0 m ρ c (Proc.devRef .tc main_arg9)))))))))))))))
theorem W14_arg10 : W14 m ρ c (Proc.devRef .tc main_arg10) = (m ((c : Thread nD τ).loc main_arg10)) := ((by hstep hostOps7 : W14 m ρ c (Proc.devRef .tc main_arg10) = W13 m ρ c (Proc.devRef .tc main_arg10)).trans ((W13_of_ne m ρ c main_arg10 (by decide)).trans ((W12_of_ne m ρ c main_arg10 (by decide)).trans ((by hstep hostOps5 : W11 m ρ c (Proc.devRef .tc main_arg10) = W10 m ρ c (Proc.devRef .tc main_arg10)).trans ((W10_of_ne m ρ c main_arg10 (by decide)).trans ((by hstep hostOps4 : W9 m ρ c (Proc.devRef .tc main_arg10) = W8 m ρ c (Proc.devRef .tc main_arg10)).trans ((W8_of_ne m ρ c main_arg10 (by decide)).trans ((by hstep hostOps3 : W7 m ρ c (Proc.devRef .tc main_arg10) = W6 m ρ c (Proc.devRef .tc main_arg10)).trans ((W6_of_ne m ρ c main_arg10 (by decide)).trans ((by hstep hostOps2 : W5 m ρ c (Proc.devRef .tc main_arg10) = W4 m ρ c (Proc.devRef .tc main_arg10)).trans ((W4_of_ne m ρ c main_arg10 (by decide)).trans ((by hstep hostOps1 : W3 m ρ c (Proc.devRef .tc main_arg10) = W2 m ρ c (Proc.devRef .tc main_arg10)).trans ((W2_of_ne m ρ c main_arg10 (by decide)).trans (by hstep hostOps0 : W1 m ρ c (Proc.devRef .tc main_arg10) = W0 m ρ c (Proc.devRef .tc main_arg10)))))))))))))))

end Cert.KernelIdeal.Host

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.Reg0.lean ====
/-
  The matrix product of region 0, entry by entry.

  The region multiplies a 100000 × 128 matrix of rows by a 128 × 128 weight. Its grid has 50 points; point t
  stages rows 2000·t … 2000·t + 1999 of the left operand and the whole weight, multiplies the two blocks into a zero
  accumulator, and writes the 2000 × 128 block of products back to rows 2000·t … 2000·t + 1999 of the result.
  Changing the operands' float format and re-casting a block to its own shape do nothing to an extended real, so the
  block written at point t is block t of ONE function of the two arrays: entry (a, b) is the sum over k of
  left (a, k) · weight (k, b). Row a lies in the block of point a / 2000, the 50 blocks tile the 100000 rows, and so
  the result array ends holding that function everywhere.
-/
import proofs.«424323_j36094905155901_2_alg».proof.Proof.Gen.KernelIdeal.Frame
import proofs.«424323_j36094905155901_2_alg».proof.Proof.LibDot
import Idealize.ShloMosaic.Lib.Pipeline.Value

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the region finds it: 100000 rows of 128 entries. -/
abbrev rowsIn (c : Dev nD) : Vec Ideal S100000x128 .f32 := V c main_arg0
/-- The weight as the region finds it: 128 × 128. -/
abbrev weightIn (c : Dev nD) : Vec Ideal S128x128 .f32 := V c main_v34

/-- The product of a 100000 × 128 matrix and a 128 × 128 matrix: entry (a, b) is ∑ₖ x (a, k) · w (k, b). -/
def product (x : Vec Ideal S100000x128 .f32) (w : Vec Ideal S128x128 .f32) : Vec Ideal S100000x128 .f32 :=
  fun i => ∑ k : Fin 128, x (ix2 (i 0 : Fin 100000) k) * w (ix2 k (i 1 : Fin 128))

theorem product_apply (x : Vec Ideal S100000x128 .f32) (w : Vec Ideal S128x128 .f32) (a : Fin 100000) (b : Fin 128) :
    product x w (ix2 a b) = ∑ k : Fin 128, x (ix2 a k) * w (ix2 k b) := rfl

/-! ## The body at an entry of a block -/

/-- The body's arithmetic on a block of 2000 rows and the weight block, at entry (p, q): the rounding of both operands
    to a narrower format and the cast of the weight block to its own shape change nothing, and the product into the
    zero accumulator is the sum over the contracted coordinate. -/
theorem body_apply (xb : Vec Ideal S2000x128 .f32) (wb : Vec Ideal S128x128 .f32) (p : Fin 2000) (q : Fin 128) :
    k0_pay1 xb wb (ix2 p q) = ∑ k : Fin 128, xb (ix2 p k) * wb (ix2 k q) := by
  unfold k0_pay1
  simp only [shapeCast_self]
  exact (Cert.LibDot.matmul_zero_apply dot_S2000x128_S128x128_S2000x128_1_0_0_1_n_n rfl rfl rfl rfl rfl rfl none _ _ p q).trans rfl

/-! ## The windows' blocks as rows of the arrays -/

theorem zero_offsets : (![0, 0] : Fin 2 → Nat) = fun _ => 0 := funext fun a => by fin_cases a <;> rfl

/-- The index maps over the 50 points: the left operand's and the result's block index is (t, 0), the
    weight's is (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of the array. -/
theorem rows_block_apply (c : Dev nD) (t : Fin cfg0.N) (y : S2000x128.Idx) (i : S100000x128.Idx)
    (h0 : (i 0).val = t.val * 2000 + (y 0).val) (h1 : (i 1).val = (y 1).val) :
    (iblk0 V c 0 t : Vec Ideal S2000x128 .f32) y = rowsIn V c i := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The weight's block at every point is the whole weight. -/
theorem weight_block_apply (c : Dev nD) (t : Fin cfg0.N) (y : S128x128.Idx) :
    (iblk0 V c 1 t : Vec Ideal S128x128 .f32) y = weightIn V c y := by
  obtain ⟨-, -, e2, e3, -, -⟩ := block_indices t
  unfold iblk0
  rw [View.read_apply]
  show V c main_v34 _ = V c main_v34 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-! ## What a point writes back -/

/-- The block of products at entry j, for blocks that are rows t·2000 … of x and the whole of w, is the product
    matrix at the array index i that j sits at: row n·2000 + j₀, column j₁. -/
theorem block_product (x : Vec Ideal S100000x128 .f32) (w : Vec Ideal S128x128 .f32)
    (xb : Vec Ideal S2000x128 .f32) (wb : Vec Ideal S128x128 .f32) (n : Nat)
    (hx : ∀ (y : S2000x128.Idx) (i : S100000x128.Idx), (i 0).val = n * 2000 + (y 0).val → (i 1).val = (y 1).val → xb y = x i)
    (hw : ∀ y : S128x128.Idx, wb y = w y)
    (j : S2000x128.Idx) (i : S100000x128.Idx) (h0 : (i 0).val = n * 2000 + (j 0).val) (h1 : (i 1).val = (j 1).val) :
    k0_pay1 xb wb j = product x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [body_apply, product_apply]
  have hb : q = b := Fin.ext h1.symm
  subst hb
  refine Finset.sum_congr rfl fun k _ => ?_
  rw [hx (ix2 p k) (ix2 a k) h0 rfl, hw]

/-- WHAT POINT t WRITES BACK is block t of the product of the two arrays as the region finds them. -/
theorem flushed_eq (c : Dev nD) (t : Fin cfg0.N) :
    (dat0 (F := Ideal) V c).flushed 2 t
      = ((cfg0.win 2).blk t).view.read (Elt Ideal) (product (rowsIn V c) (weightIn V c)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨-, -, -, -, e4, e5⟩ := block_indices t
  funext j
  show k0_pay1 (iblk0 V c 0 t) (iblk0 V c 1 t) j = product (rowsIn V c) (weightIn V c) (((cfg0.win 2).blk t).view.emb j)
  refine block_product (rowsIn V c) (weightIn V c) (iblk0 V c 0 t) (iblk0 V c 1 t) t.val
    (fun y i h0 h1 => rows_block_apply V c t y i h0 h1) (fun y => weight_block_apply V c t y) j _ ?_ ?_
  · show win0_2.index t (0 : Fin 2) * 2000 + 1 * (j 0).val = t.val * 2000 + (j 0).val; omega
  · show win0_2.index t (1 : Fin 2) * 128 + 1 * (j 1).val = (j 1).val; omega

/-! ## The blocks tile the array -/

/-- An index of the result array is in point t's block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v37).slice (win0_2.rect t)).set ↔ _
  rw [View.set_slice_whole, Rect.mem_set_unit]
  exact Iff.rfl

/-- Row a of the result lies in the block of point a / 2000, and every point writes back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, e4, e5⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-! ## The result array after the region -/

/-- The result array after the last point is the product of the two arrays as the region found them. -/
theorem arr_eq (c : Dev nD) :
    (dat0 (F := Ideal) V c).arrAt 2 cfg0.N = product (rowsIn V c) (weightIn V c) :=
  (dat0 (F := Ideal) V c).arrAt_eq_of_cover 2 (product (rowsIn V c) (weightIn V c))
    (fun t _ => flushed_eq V c t) covered

/-- Entry (a, b) of the result array after the region: the sum over k of left (a, k) · weight (k, b). -/
theorem arr (c : Dev nD) (a : Fin 100000) (b : Fin 128) :
    (dat0 (F := Ideal) V c).arrAt 2 cfg0.N (ix2 a b)
      = ∑ k : Fin 128, rowsIn V c (ix2 a k) * weightIn V c (ix2 k b) := by
  rw [arr_eq]
  rfl

/-- The two operands are the arrays the region's first two windows stage. -/
theorem rowsIn_eq (c : Dev nD) : rowsIn V c = V c main_arg0 := rfl
theorem weightIn_eq (c : Dev nD) : weightIn V c = V c main_v34 := rfl

end Cert.KernelIdeal.Reg0

end
-- ==== Proof.Reg1.lean ====
/- Region 1 is one elementwise pass over a [100000,128] array, 2000 rows per grid point over fifty points: a bias is
   added, the column's mean subtracted, the result scaled by the column's scale times the reciprocal root of its
   variance plus ε, shifted, and cut off below at zero. Here: the body's arithmetic at one entry of a block, what each
   point writes back as a block of ONE whole-array function, the tiling of the rows by the fifty blocks, and so the
   array after the region, entry by entry. -/
import proofs.«424323_j36094905155901_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated rows the region reads, as they stand when the region is entered. -/
abbrev rowsIn (c : Dev nD) : FVec Ideal S100000x128 .f32 := V c main_v59
/-- The bias, and the normalisation's scale, shift, mean and variance: one entry per column each. -/
abbrev biasIn (c : Dev nD) : FVec Ideal S128 .f32 := V c main_v36
abbrev scaleIn (c : Dev nD) : FVec Ideal S128 .f32 := V c main_v61
abbrev shiftIn (c : Dev nD) : FVec Ideal S128 .f32 := V c main_v63
abbrev meanIn (c : Dev nD) : FVec Ideal S128 .f32 := V c main_v65
abbrev varIn (c : Dev nD) : FVec Ideal S128 .f32 := V c main_v67

/-- The column of an index of the row array, as a number below 128. -/
abbrev colOf (i : S100000x128.Idx) : Fin 128 := ⟨(i 1).val, idx2_lt1 i⟩

/-- One entry of the result from one entry `x` of a row and its column's bias `b`, scale `g`, shift `s`, mean `mu`
    and variance `vr`: max(((x + b) − mu) · (g · rsqrt(vr + ε)) + s, 0). -/
abbrev entry (x b g s mu vr : Ideal .f32) : Ideal .f32 :=
  FloatOps.maximumf (FloatOps.addf (FloatOps.mulf (FloatOps.subf (FloatOps.addf x b) mu)
      (FloatOps.mulf g (FloatOps.rsqrt (FloatOps.addf vr (Scalar.ofBits .f32 0x3727C5AC#32))))) s)
    (Scalar.ofBits .f32 0x00000000#32)

/-- The result array: `entry` of each row entry and its column's parameters. -/
abbrev normed (A : FVec Ideal S100000x128 .f32) (Bv G Be Mu Vr : FVec Ideal S128 .f32) : FVec Ideal S100000x128 .f32 :=
  fun i => entry (A i) (Bv (ix1 (colOf i))) (G (ix1 (colOf i))) (Be (ix1 (colOf i))) (Mu (ix1 (colOf i))) (Vr (ix1 (colOf i)))

theorem off2 : (![0, 0] : Fin 2 → Nat) = fun _ => 0 := funext fun a => by fin_cases a <;> rfl
theorem off1 : (![0] : Fin 1 → Nat) = fun _ => 0 := funext fun a => by fin_cases a; rfl

/-- The body's arithmetic at one entry of a block: the per-column vectors are laid along the rows ([128] → [1,128] →
    [2000,128]), so entry (p, q) of the block meets entry q of each of them. -/
theorem pay_apply (x0 : FVec Ideal S2000x128 .f32) (b g vr mu s : FVec Ideal S128 .f32) (p : Fin 2000) (q : Fin 128) :
    k1_pay1 (F := Ideal) x0 b g vr mu s (ix2 p q)
      = entry (x0 (ix2 p q)) (b (ix1 q)) (g (ix1 q)) (s (ix1 q)) (mu (ix1 q)) (vr (ix1 q)) := by
  unfold k1_pay1
  show FloatOps.maximumf (FloatOps.addf (FloatOps.mulf (FloatOps.subf (FloatOps.addf _ _) _) _) _) _ = _
  simp only [shapeCast_self, broadcastTo_1b_ab_apply, shapeCast_a_1a_apply]
  rfl

/-- The printed block index maps over the grid: the row windows sit at block (t, 0), each per-column vector at block 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- What point `t` writes back is block `t` (rows 2000 t … 2000 t + 1999) of the normalised array. -/
theorem flushed_eq (c : Dev nD) (t : Fin cfg1.N) :
    (dat1 (F := Ideal) V c).flushed 6 t
      = ((cfg1.win 6).blk t).view.read (Elt Ideal)
          (normed (rowsIn V c) (biasIn V c) (scaleIn V c) (shiftIn V c) (meanIn V c) (varIn V c)) := by
  show (cfg1.win 6).cut (grid1.coords t) ((dat1 V c).after 6 t) = _
  rw [after1_6]
  unfold out1_6
  rw [View.canon_unit_zero off2]
  simp only [View.ld_unit_zero (S := S2000x128) off2, View.ld_unit_zero (S := S128) off1]
  obtain ⟨e00, e01, e1, e2, e3, e4, e5, e60, e61⟩ := idx_facts t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 5 t) (iblk1 V c 4 t) (iblk1 V c 3 t) (ix2 p q)
    = normed (rowsIn V c) (biasIn V c) (scaleIn V c) (shiftIn V c) (meanIn V c) (varIn V c) (((cfg1.win 6).blk t).view.emb (ix2 p q))
  refine (pay_apply (iblk1 V c 0 t) (iblk1 V c 1 t) (iblk1 V c 2 t) (iblk1 V c 5 t) (iblk1 V c 4 t) (iblk1 V c 3 t) p q).trans ?_
  have h0 : iblk1 V c 0 t (ix2 p q) = rowsIn V c (((cfg1.win 6).blk t).view.emb (ix2 p q)) := by
    show V c main_v59 (((cfg1.win 0).blk t).view.emb (ix2 p q)) = V c main_v59 (((cfg1.win 6).blk t).view.emb (ix2 p q))
    refine congrArg (V c main_v59) (funext fun a => Fin.ext ?_)
    match a with
    | ⟨0, _⟩ => show win1_0.index t (0 : Fin 2) * 2000 + 1 * p.val = win1_6.index t (0 : Fin 2) * 2000 + 1 * p.val; rw [e00, e60]
    | ⟨1, _⟩ => show win1_0.index t (1 : Fin 2) * 128 + 1 * q.val = win1_6.index t (1 : Fin 2) * 128 + 1 * q.val; rw [e01, e61]
  have h1 : iblk1 V c 1 t (ix1 q) = biasIn V c (ix1 (colOf (((cfg1.win 6).blk t).view.emb (ix2 p q)))) := by
    show V c main_v36 (((cfg1.win 1).blk t).view.emb (ix1 q)) = V c main_v36 (ix1 (colOf (((cfg1.win 6).blk t).view.emb (ix2 p q))))
    refine congrArg (V c main_v36) (funext fun a => Fin.ext ?_)
    match a with
    | ⟨0, _⟩ => show win1_1.index t (0 : Fin 1) * 128 + 1 * q.val = win1_6.index t (1 : Fin 2) * 128 + 1 * q.val; rw [e1, e61]
  have h2 : iblk1 V c 2 t (ix1 q) = scaleIn V c (ix1 (colOf (((cfg1.win 6).blk t).view.emb (ix2 p q)))) := by
    show V c main_v61 (((cfg1.win 2).blk t).view.emb (ix1 q)) = V c main_v61 (ix1 (colOf (((cfg1.win 6).blk t).view.emb (ix2 p q))))
    refine congrArg (V c main_v61) (funext fun a => Fin.ext ?_)
    match a with
    | ⟨0, _⟩ => show win1_2.index t (0 : Fin 1) * 128 + 1 * q.val = win1_6.index t (1 : Fin 2) * 128 + 1 * q.val; rw [e2, e61]
  have h3 : iblk1 V c 3 t (ix1 q) = shiftIn V c (ix1 (colOf (((cfg1.win 6).blk t).view.emb (ix2 p q)))) := by
    show V c main_v63 (((cfg1.win 3).blk t).view.emb (ix1 q)) = V c main_v63 (ix1 (colOf (((cfg1.win 6).blk t).view.emb (ix2 p q))))
    refine congrArg (V c main_v63) (funext fun a => Fin.ext ?_)
    match a with
    | ⟨0, _⟩ => show win1_3.index t (0 : Fin 1) * 128 + 1 * q.val = win1_6.index t (1 : Fin 2) * 128 + 1 * q.val; rw [e3, e61]
  have h4 : iblk1 V c 4 t (ix1 q) = meanIn V c (ix1 (colOf (((cfg1.win 6).blk t).view.emb (ix2 p q)))) := by
    show V c main_v65 (((cfg1.win 4).blk t).view.emb (ix1 q)) = V c main_v65 (ix1 (colOf (((cfg1.win 6).blk t).view.emb (ix2 p q))))
    refine congrArg (V c main_v65) (funext fun a => Fin.ext ?_)
    match a with
    | ⟨0, _⟩ => show win1_4.index t (0 : Fin 1) * 128 + 1 * q.val = win1_6.index t (1 : Fin 2) * 128 + 1 * q.val; rw [e4, e61]
  have h5 : iblk1 V c 5 t (ix1 q) = varIn V c (ix1 (colOf (((cfg1.win 6).blk t).view.emb (ix2 p q)))) := by
    show V c main_v67 (((cfg1.win 5).blk t).view.emb (ix1 q)) = V c main_v67 (ix1 (colOf (((cfg1.win 6).blk t).view.emb (ix2 p q))))
    refine congrArg (V c main_v67) (funext fun a => Fin.ext ?_)
    match a with
    | ⟨0, _⟩ => show win1_5.index t (0 : Fin 1) * 128 + 1 * q.val = win1_6.index t (1 : Fin 2) * 128 + 1 * q.val; rw [e5, e61]
  rw [h0, h1, h2, h3, h4, h5]

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v68).slice (win1_6.rect t)).set ↔ _
  rw [View.set_slice_whole, Rect.mem_set_unit]
  exact Iff.rfl

/-- Row `r` lies in the block of point `r / 2000`: the fifty blocks of 2000 rows tile the 100000 rows. -/
theorem cover (i : S100000x128.Idx) :
    ∃ t : Fin cfg1.N, (cfg1.win 6).flush t = true ∧ i ∈ ((cfg1.win 6).blk t).view.set := by
  have hN : cfg1.N = 50 := N_1
  have hi0 : (i 0).val < 100000 := (i 0).isLt
  have hi1 : (i 1).val < 128 := (i 1).isLt
  let t : Fin cfg1.N := ⟨(i 0).val / 2000, by rw [hN]; omega⟩
  obtain ⟨e00, e01, e1, e2, e3, e4, e5, e60, e61⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [e60, ht]; omega
  | ⟨1, _⟩ => show win1_6.index t (1 : Fin 2) * 128 ≤ (i 1).val ∧ (i 1).val < win1_6.index t (1 : Fin 2) * 128 + 128; rw [e61]; omega

/-- The array after the region, as one function of the arrays the region finds. -/
theorem final (c : Dev nD) : (dat1 (F := Ideal) V c).arrAt 6 cfg1.N
    = normed (rowsIn V c) (biasIn V c) (scaleIn V c) (shiftIn V c) (meanIn V c) (varIn V c) :=
  (dat1 (F := Ideal) V c).arrAt_eq_of_cover 6 (normed (rowsIn V c) (biasIn V c) (scaleIn V c) (shiftIn V c) (meanIn V c) (varIn V c))
    (fun t _ => flushed_eq V c t) cover

/-- The array after the region, entry by entry: bias added, the column's mean taken off, scaled by the column's
    scale over the root of its variance plus ε, shifted, and cut off below at zero. -/
theorem arr (c : Dev nD) (a : Fin 100000) (b : Fin 128) :
    (dat1 (F := Ideal) V c).arrAt 6 cfg1.N (ix2 a b)
      = FloatOps.maximumf (F := Ideal) (φ := .f32) (FloatOps.addf (FloatOps.mulf (FloatOps.subf (FloatOps.addf ((V c main_v59 : FVec Ideal S100000x128 .f32) (ix2 a b)) ((V c main_v36 : FVec Ideal S128 .f32) (ix1 b))) ((V c main_v65 : FVec Ideal S128 .f32) (ix1 b)))
          (FloatOps.mulf ((V c main_v61 : FVec Ideal S128 .f32) (ix1 b)) (FloatOps.rsqrt (FloatOps.addf ((V c main_v67 : FVec Ideal S128 .f32) (ix1 b)) (Scalar.ofBits .f32 0x3727C5AC#32))))) ((V c main_v63 : FVec Ideal S128 .f32) (ix1 b)))
        (Scalar.ofBits .f32 0x00000000#32) := by
  rw [final V c]

end Cert.KernelIdeal.Reg1
end
-- ==== Proof.Reg2.lean ====
/-
  The matrix product of region 2, entry by entry.

  The region multiplies a 100000 × 128 matrix of rows by a 128 × 128 weight. Its grid has 50 points; point t
  stages rows 2000·t … 2000·t + 1999 of the left operand and the whole weight, multiplies the two blocks into a zero
  accumulator, and writes the 2000 × 128 block of products back to rows 2000·t … 2000·t + 1999 of the result.
  Changing the operands' float format and re-casting a block to its own shape do nothing to an extended real, so the
  block written at point t is block t of ONE function of the two arrays: entry (a, b) is the sum over k of
  left (a, k) · weight (k, b). Row a lies in the block of point a / 2000, the 50 blocks tile the 100000 rows, and so
  the result array ends holding that function everywhere.
-/
import proofs.«424323_j36094905155901_2_alg».proof.Proof.Gen.KernelIdeal.Frame
import proofs.«424323_j36094905155901_2_alg».proof.Proof.LibDot
import Idealize.ShloMosaic.Lib.Pipeline.Value

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the region finds it: 100000 rows of 128 entries. -/
abbrev rowsIn (c : Dev nD) : Vec Ideal S100000x128 .f32 := V c main_v68
/-- The weight as the region finds it: 128 × 128. -/
abbrev weightIn (c : Dev nD) : Vec Ideal S128x128 .f32 := V c main_v70

/-- The product of a 100000 × 128 matrix and a 128 × 128 matrix: entry (a, b) is ∑ₖ x (a, k) · w (k, b). -/
def product (x : Vec Ideal S100000x128 .f32) (w : Vec Ideal S128x128 .f32) : Vec Ideal S100000x128 .f32 :=
  fun i => ∑ k : Fin 128, x (ix2 (i 0 : Fin 100000) k) * w (ix2 k (i 1 : Fin 128))

theorem product_apply (x : Vec Ideal S100000x128 .f32) (w : Vec Ideal S128x128 .f32) (a : Fin 100000) (b : Fin 128) :
    product x w (ix2 a b) = ∑ k : Fin 128, x (ix2 a k) * w (ix2 k b) := rfl

/-! ## The body at an entry of a block -/

/-- The body's arithmetic on a block of 2000 rows and the weight block, at entry (p, q): the rounding of both operands
    to a narrower format and the cast of the weight block to its own shape change nothing, and the product into the
    zero accumulator is the sum over the contracted coordinate. -/
theorem body_apply (xb : Vec Ideal S2000x128 .f32) (wb : Vec Ideal S128x128 .f32) (p : Fin 2000) (q : Fin 128) :
    k2_pay1 xb wb (ix2 p q) = ∑ k : Fin 128, xb (ix2 p k) * wb (ix2 k q) := by
  unfold k2_pay1
  simp only [shapeCast_self]
  exact (Cert.LibDot.matmul_zero_apply dot_S2000x128_S128x128_S2000x128_1_0_0_1_n_n rfl rfl rfl rfl rfl rfl none _ _ p q).trans rfl

/-! ## The windows' blocks as rows of the arrays -/

theorem zero_offsets : (![0, 0] : Fin 2 → Nat) = fun _ => 0 := funext fun a => by fin_cases a <;> rfl

/-- The index maps over the 50 points: the left operand's and the result's block index is (t, 0), the
    weight's is (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000·t … 2000·t + 1999 of the array. -/
theorem rows_block_apply (c : Dev nD) (t : Fin cfg2.N) (y : S2000x128.Idx) (i : S100000x128.Idx)
    (h0 : (i 0).val = t.val * 2000 + (y 0).val) (h1 : (i 1).val = (y 1).val) :
    (iblk2 V c 0 t : Vec Ideal S2000x128 .f32) y = rowsIn V c i := by
  obtain ⟨e0, e1, -, -, -, -⟩ := block_indices t
  unfold iblk2
  rw [View.read_apply]
  show V c main_v68 _ = V c main_v68 _
  congr 1
  funext a
  apply Fin.ext
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The weight's block at every point is the whole weight. -/
theorem weight_block_apply (c : Dev nD) (t : Fin cfg2.N) (y : S128x128.Idx) :
    (iblk2 V c 1 t : Vec Ideal S128x128 .f32) y = weightIn V c y := by
  obtain ⟨-, -, e2, e3, -, -⟩ := block_indices t
  unfold iblk2
  rw [View.read_apply]
  show V c main_v70 _ = V c main_v70 _
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-! ## What a point writes back -/

/-- The block of products at entry j, for blocks that are rows t·2000 … of x and the whole of w, is the product
    matrix at the array index i that j sits at: row n·2000 + j₀, column j₁. -/
theorem block_product (x : Vec Ideal S100000x128 .f32) (w : Vec Ideal S128x128 .f32)
    (xb : Vec Ideal S2000x128 .f32) (wb : Vec Ideal S128x128 .f32) (n : Nat)
    (hx : ∀ (y : S2000x128.Idx) (i : S100000x128.Idx), (i 0).val = n * 2000 + (y 0).val → (i 1).val = (y 1).val → xb y = x i)
    (hw : ∀ y : S128x128.Idx, wb y = w y)
    (j : S2000x128.Idx) (i : S100000x128.Idx) (h0 : (i 0).val = n * 2000 + (j 0).val) (h1 : (i 1).val = (j 1).val) :
    k2_pay1 xb wb j = product x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [body_apply, product_apply]
  have hb : q = b := Fin.ext h1.symm
  subst hb
  refine Finset.sum_congr rfl fun k _ => ?_
  rw [hx (ix2 p k) (ix2 a k) h0 rfl, hw]

/-- WHAT POINT t WRITES BACK is block t of the product of the two arrays as the region finds them. -/
theorem flushed_eq (c : Dev nD) (t : Fin cfg2.N) :
    (dat2 (F := Ideal) V c).flushed 2 t
      = ((cfg2.win 2).blk t).view.read (Elt Ideal) (product (rowsIn V c) (weightIn V c)) := by
  show (cfg2.win 2).cut (grid2.coords t) ((dat2 (F := Ideal) V c).after 2 t) = _
  rw [after2_2]
  unfold out2_2
  rw [View.canon_unit_zero zero_offsets]
  simp only [View.ld_unit_zero (S := S2000x128) zero_offsets, View.ld_unit_zero (S := S128x128) zero_offsets]
  obtain ⟨-, -, -, -, e4, e5⟩ := block_indices t
  funext j
  show k2_pay1 (iblk2 V c 0 t) (iblk2 V c 1 t) j = product (rowsIn V c) (weightIn V c) (((cfg2.win 2).blk t).view.emb j)
  refine block_product (rowsIn V c) (weightIn V c) (iblk2 V c 0 t) (iblk2 V c 1 t) t.val
    (fun y i h0 h1 => rows_block_apply V c t y i h0 h1) (fun y => weight_block_apply V c t y) j _ ?_ ?_
  · show win2_2.index t (0 : Fin 2) * 2000 + 1 * (j 0).val = t.val * 2000 + (j 0).val; omega
  · show win2_2.index t (1 : Fin 2) * 128 + 1 * (j 1).val = (j 1).val; omega

/-! ## The blocks tile the array -/

/-- An index of the result array is in point t's block iff each coordinate is in the block's range on its axis. -/
theorem mem_block (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v73).slice (win2_2.rect t)).set ↔ _
  rw [View.set_slice_whole, Rect.mem_set_unit]
  exact Iff.rfl

/-- Row a of the result lies in the block of point a / 2000, and every point writes back. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, e4, e5⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-! ## The result array after the region -/

/-- The result array after the last point is the product of the two arrays as the region found them. -/
theorem arr_eq (c : Dev nD) :
    (dat2 (F := Ideal) V c).arrAt 2 cfg2.N = product (rowsIn V c) (weightIn V c) :=
  (dat2 (F := Ideal) V c).arrAt_eq_of_cover 2 (product (rowsIn V c) (weightIn V c))
    (fun t _ => flushed_eq V c t) covered

/-- Entry (a, b) of the result array after the region: the sum over k of left (a, k) · weight (k, b). -/
theorem arr (c : Dev nD) (a : Fin 100000) (b : Fin 128) :
    (dat2 (F := Ideal) V c).arrAt 2 cfg2.N (ix2 a b)
      = ∑ k : Fin 128, rowsIn V c (ix2 a k) * weightIn V c (ix2 k b) := by
  rw [arr_eq]
  rfl

/-- The two operands are the arrays the region's first two windows stage. -/
theorem rowsIn_eq (c : Dev nD) : rowsIn V c = V c main_v68 := rfl
theorem weightIn_eq (c : Dev nD) : weightIn V c = V c main_v70 := rfl

end Cert.KernelIdeal.Reg2

end
-- ==== Proof.Reg3.lean ====
/- Region 3 is one elementwise pass over a [100000,128] array, 2000 rows per grid point over fifty points: a bias is
   added, the column's mean subtracted, the result scaled by the column's scale times the reciprocal root of its
   variance plus ε, shifted, and cut off below at zero. Here: the body's arithmetic at one entry of a block, what each
   point writes back as a block of ONE whole-array function, the tiling of the rows by the fifty blocks, and so the
   array after the region, entry by entry. -/
import proofs.«424323_j36094905155901_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The aggregated rows the region reads, as they stand when the region is entered. -/
abbrev rowsIn (c : Dev nD) : FVec Ideal S100000x128 .f32 := V c main_v95
/-- The bias, and the normalisation's scale, shift, mean and variance: one entry per column each. -/
abbrev biasIn (c : Dev nD) : FVec Ideal S128 .f32 := V c main_v72
abbrev scaleIn (c : Dev nD) : FVec Ideal S128 .f32 := V c main_v97
abbrev shiftIn (c : Dev nD) : FVec Ideal S128 .f32 := V c main_v99
abbrev meanIn (c : Dev nD) : FVec Ideal S128 .f32 := V c main_v101
abbrev varIn (c : Dev nD) : FVec Ideal S128 .f32 := V c main_v103

/-- The column of an index of the row array, as a number below 128. -/
abbrev colOf (i : S100000x128.Idx) : Fin 128 := ⟨(i 1).val, idx2_lt1 i⟩

/-- One entry of the result from one entry `x` of a row and its column's bias `b`, scale `g`, shift `s`, mean `mu`
    and variance `vr`: max(((x + b) − mu) · (g · rsqrt(vr + ε)) + s, 0). -/
abbrev entry (x b g s mu vr : Ideal .f32) : Ideal .f32 :=
  FloatOps.maximumf (FloatOps.addf (FloatOps.mulf (FloatOps.subf (FloatOps.addf x b) mu)
      (FloatOps.mulf g (FloatOps.rsqrt (FloatOps.addf vr (Scalar.ofBits .f32 0x3727C5AC#32))))) s)
    (Scalar.ofBits .f32 0x00000000#32)

/-- The result array: `entry` of each row entry and its column's parameters. -/
abbrev normed (A : FVec Ideal S100000x128 .f32) (Bv G Be Mu Vr : FVec Ideal S128 .f32) : FVec Ideal S100000x128 .f32 :=
  fun i => entry (A i) (Bv (ix1 (colOf i))) (G (ix1 (colOf i))) (Be (ix1 (colOf i))) (Mu (ix1 (colOf i))) (Vr (ix1 (colOf i)))

theorem off2 : (![0, 0] : Fin 2 → Nat) = fun _ => 0 := funext fun a => by fin_cases a <;> rfl
theorem off1 : (![0] : Fin 1 → Nat) = fun _ => 0 := funext fun a => by fin_cases a; rfl

/-- The body's arithmetic at one entry of a block: the per-column vectors are laid along the rows ([128] → [1,128] →
    [2000,128]), so entry (p, q) of the block meets entry q of each of them. -/
theorem pay_apply (x0 : FVec Ideal S2000x128 .f32) (b g vr mu s : FVec Ideal S128 .f32) (p : Fin 2000) (q : Fin 128) :
    k3_pay1 (F := Ideal) x0 b g vr mu s (ix2 p q)
      = entry (x0 (ix2 p q)) (b (ix1 q)) (g (ix1 q)) (s (ix1 q)) (mu (ix1 q)) (vr (ix1 q)) := by
  unfold k3_pay1
  show FloatOps.maximumf (FloatOps.addf (FloatOps.mulf (FloatOps.subf (FloatOps.addf _ _) _) _) _) _ = _
  simp only [shapeCast_self, broadcastTo_1b_ab_apply, shapeCast_a_1a_apply]
  rfl

/-- The printed block index maps over the grid: the row windows sit at block (t, 0), each per-column vector at block 0. -/
theorem idx_facts : ∀ t : Fin cfg3.N, win3_0.index t (0 : Fin 2) = t.val ∧ win3_0.index t (1 : Fin 2) = 0
    ∧ win3_1.index t (0 : Fin 1) = 0 ∧ win3_2.index t (0 : Fin 1) = 0 ∧ win3_3.index t (0 : Fin 1) = 0
    ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- What point `t` writes back is block `t` (rows 2000 t … 2000 t + 1999) of the normalised array. -/
theorem flushed_eq (c : Dev nD) (t : Fin cfg3.N) :
    (dat3 (F := Ideal) V c).flushed 6 t
      = ((cfg3.win 6).blk t).view.read (Elt Ideal)
          (normed (rowsIn V c) (biasIn V c) (scaleIn V c) (shiftIn V c) (meanIn V c) (varIn V c)) := by
  show (cfg3.win 6).cut (grid3.coords t) ((dat3 V c).after 6 t) = _
  rw [after3_6]
  unfold out3_6
  rw [View.canon_unit_zero off2]
  simp only [View.ld_unit_zero (S := S2000x128) off2, View.ld_unit_zero (S := S128) off1]
  obtain ⟨e00, e01, e1, e2, e3, e4, e5, e60, e61⟩ := idx_facts t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 5 t) (iblk3 V c 4 t) (iblk3 V c 3 t) (ix2 p q)
    = normed (rowsIn V c) (biasIn V c) (scaleIn V c) (shiftIn V c) (meanIn V c) (varIn V c) (((cfg3.win 6).blk t).view.emb (ix2 p q))
  refine (pay_apply (iblk3 V c 0 t) (iblk3 V c 1 t) (iblk3 V c 2 t) (iblk3 V c 5 t) (iblk3 V c 4 t) (iblk3 V c 3 t) p q).trans ?_
  have h0 : iblk3 V c 0 t (ix2 p q) = rowsIn V c (((cfg3.win 6).blk t).view.emb (ix2 p q)) := by
    show V c main_v95 (((cfg3.win 0).blk t).view.emb (ix2 p q)) = V c main_v95 (((cfg3.win 6).blk t).view.emb (ix2 p q))
    refine congrArg (V c main_v95) (funext fun a => Fin.ext ?_)
    match a with
    | ⟨0, _⟩ => show win3_0.index t (0 : Fin 2) * 2000 + 1 * p.val = win3_6.index t (0 : Fin 2) * 2000 + 1 * p.val; rw [e00, e60]
    | ⟨1, _⟩ => show win3_0.index t (1 : Fin 2) * 128 + 1 * q.val = win3_6.index t (1 : Fin 2) * 128 + 1 * q.val; rw [e01, e61]
  have h1 : iblk3 V c 1 t (ix1 q) = biasIn V c (ix1 (colOf (((cfg3.win 6).blk t).view.emb (ix2 p q)))) := by
    show V c main_v72 (((cfg3.win 1).blk t).view.emb (ix1 q)) = V c main_v72 (ix1 (colOf (((cfg3.win 6).blk t).view.emb (ix2 p q))))
    refine congrArg (V c main_v72) (funext fun a => Fin.ext ?_)
    match a with
    | ⟨0, _⟩ => show win3_1.index t (0 : Fin 1) * 128 + 1 * q.val = win3_6.index t (1 : Fin 2) * 128 + 1 * q.val; rw [e1, e61]
  have h2 : iblk3 V c 2 t (ix1 q) = scaleIn V c (ix1 (colOf (((cfg3.win 6).blk t).view.emb (ix2 p q)))) := by
    show V c main_v97 (((cfg3.win 2).blk t).view.emb (ix1 q)) = V c main_v97 (ix1 (colOf (((cfg3.win 6).blk t).view.emb (ix2 p q))))
    refine congrArg (V c main_v97) (funext fun a => Fin.ext ?_)
    match a with
    | ⟨0, _⟩ => show win3_2.index t (0 : Fin 1) * 128 + 1 * q.val = win3_6.index t (1 : Fin 2) * 128 + 1 * q.val; rw [e2, e61]
  have h3 : iblk3 V c 3 t (ix1 q) = shiftIn V c (ix1 (colOf (((cfg3.win 6).blk t).view.emb (ix2 p q)))) := by
    show V c main_v99 (((cfg3.win 3).blk t).view.emb (ix1 q)) = V c main_v99 (ix1 (colOf (((cfg3.win 6).blk t).view.emb (ix2 p q))))
    refine congrArg (V c main_v99) (funext fun a => Fin.ext ?_)
    match a with
    | ⟨0, _⟩ => show win3_3.index t (0 : Fin 1) * 128 + 1 * q.val = win3_6.index t (1 : Fin 2) * 128 + 1 * q.val; rw [e3, e61]
  have h4 : iblk3 V c 4 t (ix1 q) = meanIn V c (ix1 (colOf (((cfg3.win 6).blk t).view.emb (ix2 p q)))) := by
    show V c main_v101 (((cfg3.win 4).blk t).view.emb (ix1 q)) = V c main_v101 (ix1 (colOf (((cfg3.win 6).blk t).view.emb (ix2 p q))))
    refine congrArg (V c main_v101) (funext fun a => Fin.ext ?_)
    match a with
    | ⟨0, _⟩ => show win3_4.index t (0 : Fin 1) * 128 + 1 * q.val = win3_6.index t (1 : Fin 2) * 128 + 1 * q.val; rw [e4, e61]
  have h5 : iblk3 V c 5 t (ix1 q) = varIn V c (ix1 (colOf (((cfg3.win 6).blk t).view.emb (ix2 p q)))) := by
    show V c main_v103 (((cfg3.win 5).blk t).view.emb (ix1 q)) = V c main_v103 (ix1 (colOf (((cfg3.win 6).blk t).view.emb (ix2 p q))))
    refine congrArg (V c main_v103) (funext fun a => Fin.ext ?_)
    match a with
    | ⟨0, _⟩ => show win3_5.index t (0 : Fin 1) * 128 + 1 * q.val = win3_6.index t (1 : Fin 2) * 128 + 1 * q.val; rw [e5, e61]
  rw [h0, h1, h2, h3, h4, h5]

/-- An index of the array is in point `t`'s block iff each coordinate is in the block's range on its axis. -/
theorem mem_blk (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v104).slice (win3_6.rect t)).set ↔ _
  rw [View.set_slice_whole, Rect.mem_set_unit]
  exact Iff.rfl

/-- Row `r` lies in the block of point `r / 2000`: the fifty blocks of 2000 rows tile the 100000 rows. -/
theorem cover (i : S100000x128.Idx) :
    ∃ t : Fin cfg3.N, (cfg3.win 6).flush t = true ∧ i ∈ ((cfg3.win 6).blk t).view.set := by
  have hN : cfg3.N = 50 := N_3
  have hi0 : (i 0).val < 100000 := (i 0).isLt
  have hi1 : (i 1).val < 128 := (i 1).isLt
  let t : Fin cfg3.N := ⟨(i 0).val / 2000, by rw [hN]; omega⟩
  obtain ⟨e00, e01, e1, e2, e3, e4, e5, e60, e61⟩ := idx_facts t
  have ht : t.val = (i 0).val / 2000 := rfl
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; rw [e60, ht]; omega
  | ⟨1, _⟩ => show win3_6.index t (1 : Fin 2) * 128 ≤ (i 1).val ∧ (i 1).val < win3_6.index t (1 : Fin 2) * 128 + 128; rw [e61]; omega

/-- The array after the region, as one function of the arrays the region finds. -/
theorem final (c : Dev nD) : (dat3 (F := Ideal) V c).arrAt 6 cfg3.N
    = normed (rowsIn V c) (biasIn V c) (scaleIn V c) (shiftIn V c) (meanIn V c) (varIn V c) :=
  (dat3 (F := Ideal) V c).arrAt_eq_of_cover 6 (normed (rowsIn V c) (biasIn V c) (scaleIn V c) (shiftIn V c) (meanIn V c) (varIn V c))
    (fun t _ => flushed_eq V c t) cover

/-- The array after the region, entry by entry: bias added, the column's mean taken off, scaled by the column's
    scale over the root of its variance plus ε, shifted, and cut off below at zero. -/
theorem arr (c : Dev nD) (a : Fin 100000) (b : Fin 128) :
    (dat3 (F := Ideal) V c).arrAt 6 cfg3.N (ix2 a b)
      = FloatOps.maximumf (F := Ideal) (φ := .f32) (FloatOps.addf (FloatOps.mulf (FloatOps.subf (FloatOps.addf ((V c main_v95 : FVec Ideal S100000x128 .f32) (ix2 a b)) ((V c main_v72 : FVec Ideal S128 .f32) (ix1 b))) ((V c main_v101 : FVec Ideal S128 .f32) (ix1 b)))
          (FloatOps.mulf ((V c main_v97 : FVec Ideal S128 .f32) (ix1 b)) (FloatOps.rsqrt (FloatOps.addf ((V c main_v103 : FVec Ideal S128 .f32) (ix1 b)) (Scalar.ofBits .f32 0x3727C5AC#32))))) ((V c main_v99 : FVec Ideal S128 .f32) (ix1 b)))
        (Scalar.ofBits .f32 0x00000000#32) := by
  rw [final V c]

end Cert.KernelIdeal.Reg3
end
-- ==== Proof.Reg4.lean ====
/-
  The matrix product of region 4, entry by entry.

  The region multiplies a 100000 × 128 matrix of rows by a 128 × 128 weight. Its grid has 50 points; point t
  stages rows 2000·t … 2000·t + 1999 of the left operand and the whole weight, multiplies the two blocks into a zero
  accumulator, and writes the 2000 × 128 block of products back to rows 2000·t … 2000·t + 1999 of the result.
  Changing the operands' float format and re-casting a block to its own shape do nothing to an extended real, so the
  block written at point t is block t of ONE function of the two arrays: entry (a, b) is the sum over k of
  left (a, k) · weight (k, b). Row a lies in the block of point a / 2000, the 50 blocks tile the 100000 rows, and so
  the result array ends holding that function everywhere.
-/
import proofs.«424323_j36094905155901_2_alg».proof.Proof.Gen.KernelIdeal.Frame
import proofs.«424323_j36094905155901_2_alg».proof.Proof.LibDot
import Idealize.ShloMosaic.Lib.Pipeline.Value

set_option maxRecDepth 16384

noncomputable section

open scoped BigOperators

namespace Cert.KernelIdeal.Reg4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand as the region finds it: 100000 rows of 128 entries. -/
abbrev rowsIn (c : Dev nD) : Vec Ideal S100000x128 .f32 := V c main_v104
/-- The weight as the region finds it: 128 × 128. -/
abbrev weightIn (c : Dev nD) : Vec Ideal S128x128 .f32 := V c main_v106

/-- The product of a 100000 × 128 matrix and a 128 × 128 matrix: entry (a, b) is ∑ₖ x (a, k) · w (k, b). -/
def product (x : Vec Ideal S100000x128 .f32) (w : Vec Ideal S128x128 .f32) : Vec Ideal S100000x128 .f32 :=
  fun i => ∑ k : Fin 128, x (ix2 (i 0 : Fin 100000) k) * w (ix2 k (i 1 : Fin 128))

theorem product_apply (x : Vec Ideal S100000x128 .f32) (w : Vec Ideal S128x128 .f32) (a : Fin 100000) (b : Fin 128) :
    product x w (ix2 a b) = ∑ k : Fin 128, x (ix2 a k) * w (ix2 k b) := rfl

/-! ## The body at an entry of a block -/

/-- The body's arithmetic on a block of 2000 rows and the weight block, at entry (p, q): the rounding of both operands
    to a narrower format and the cast of the weight block to its own shape change nothing, and the product into the
    zero accumulator is the sum over the contracted coordinate. -/
theorem body_apply (xb : Vec Ideal S2000x128 .f32) (wb : Vec Ideal S128x128 .f32) (p : Fin 2000) (q : Fin 128) :
    k4_pay1 xb wb (ix2 p q) = ∑ k : Fin 128, xb (ix2 p k) * wb (ix2 k q) := by
  unfold k4_pay1
  simp only [shapeCast_self]
  exact (Cert.LibDot.matmul_zero_apply dot_S2000x128_S128x128_S2000x128_1_0_0_1_n_n rfl rfl rfl rfl rfl rfl none _ _ p q).trans rfl

/-! ## The windows' blocks as rows of the arrays -/

theorem zero_offsets : (![0, 0] : Fin 2 → Nat) = fun _ => 0 := funext fun a => by fin_cases a <;> rfl

/-- The index maps over the 50 points: the left operand's and the result's block index is (t, 0), the
    weight's is (0, 0). -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is rows 2000·t … 2000·t + 1999 of the array. -/
theorem rows_block_apply (c : Dev nD) (t : Fin cfg4.N) (y : S2000x128.Idx) (i : S100000x128.Idx)
    (h0 : (i 0).val = t.val * 2000 + (y 0).val) (h1 : (i 1).val = (y 1).val) :
    (iblk4 V c 0 t : Vec Ideal S2000x128 .f32) y = rowsIn V c i := by
  obtain ⟨e0, e1, -, -, -, -⟩ := block_indices t
  unfold iblk4
  rw [View.read_apply]
  show V c main_v104 _ = V c main_v104 _
  congr 1
  funext a
  apply Fin.ext
  match a with
  | ⟨0, _⟩ => show win4_0.index t (0 : Fin 2) * 2000 + 1 * (y 0).val = (i 0).val; omega
  | ⟨1, _⟩ => show win4_0.index t (1 : Fin 2) * 128 + 1 * (y 1).val = (i 1).val; omega

/-- The weight's block at every point is the whole weight. -/
theorem weight_block_apply (c : Dev nD) (t : Fin cfg4.N) (y : S128x128.Idx) :
    (iblk4 V c 1 t : Vec Ideal S128x128 .f32) y = weightIn V c y := by
  obtain ⟨-, -, e2, e3, -, -⟩ := block_indices t
  unfold iblk4
  rw [View.read_apply]
  show V c main_v106 _ = V c main_v106 _
  congr 1
  funext a
  apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-! ## What a point writes back -/

/-- The block of products at entry j, for blocks that are rows t·2000 … of x and the whole of w, is the product
    matrix at the array index i that j sits at: row n·2000 + j₀, column j₁. -/
theorem block_product (x : Vec Ideal S100000x128 .f32) (w : Vec Ideal S128x128 .f32)
    (xb : Vec Ideal S2000x128 .f32) (wb : Vec Ideal S128x128 .f32) (n : Nat)
    (hx : ∀ (y : S2000x128.Idx) (i : S100000x128.Idx), (i 0).val = n * 2000 + (y 0).val → (i 1).val = (y 1).val → xb y = x i)
    (hw : ∀ y : S128x128.Idx, wb y = w y)
    (j : S2000x128.Idx) (i : S100000x128.Idx) (h0 : (i 0).val = n * 2000 + (j 0).val) (h1 : (i 1).val = (j 1).val) :
    k4_pay1 xb wb j = product x w i := by
  obtain ⟨p, q, rfl⟩ : ∃ (p : Fin 2000) (q : Fin 128), j = ix2 p q := ⟨j 0, j 1, eq_ix2 j⟩
  obtain ⟨a, b, rfl⟩ : ∃ (a : Fin 100000) (b : Fin 128), i = ix2 a b := ⟨i 0, i 1, eq_ix2 i⟩
  rw [body_apply, product_apply]
  have hb : q = b := Fin.ext h1.symm
  subst hb
  refine Finset.sum_congr rfl fun k _ => ?_
  rw [hx (ix2 p k) (ix2 a k) h0 rfl, hw]

/-- WHAT POINT t WRITES BACK is block t of the product of the two arrays as the region finds them. -/
theorem flushed_eq (c : Dev nD) (t : Fin cfg4.N) :
    (dat4 (F := Ideal) V c).flushed 2 t
      = ((cfg4.win 2).blk t).view.read (Elt Ideal) (product (rowsIn V c) (weightIn V c)) := by
  show (cfg4.win 2).cut (grid4.coords t) ((dat4 (F := Ideal) V c).after 2 t) = _
  rw [after4_2]
  unfold out4_2
  rw [View.canon_unit_zero zero_offsets]
  simp only [View.ld_unit_zero (S := S2000x128) zero_offsets, View.ld_unit_zero (S := S128x128) zero_offsets]
  obtain ⟨-, -, -, -, e4, e5⟩ := block_indices t
  funext j
  show k4_pay1 (iblk4 V c 0 t) (iblk4 V c 1 t) j = product (rowsIn V c) (weightIn V c) (((cfg4.win 2).blk t).view.emb j)
  refine block_product (rowsIn V c) (weightIn V c) (iblk4 V c 0 t) (iblk4 V c 1 t) t.val
    (fun y i h0 h1 => rows_block_apply V c t y i h0 h1) (fun y => weight_block_apply V c t y) j _ ?_ ?_
  · show win4_2.index t (0 : Fin 2) * 2000 + 1 * (j 0).val = t.val * 2000 + (j 0).val; omega
  · show win4_2.index t (1 : Fin 2) * 128 + 1 * (j 1).val = (j 1).val; omega

/-! ## The blocks tile the array -/

/-- An index of the result array is in point t's block iff each coordinate is in the block's range on its axis. -/
theorem mem_block (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v109).slice (win4_2.rect t)).set ↔ _
  rw [View.set_slice_whole, Rect.mem_set_unit]
  exact Iff.rfl

/-- Row a of the result lies in the block of point a / 2000, and every point writes back. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 50 := N_4
  let t : Fin cfg4.N := ⟨(i 0).val / 2000, by rw [hN]; omega⟩
  obtain ⟨-, -, -, -, e4, e5⟩ := block_indices t
  have ht : t.val = (i 0).val / 2000 := rfl
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-! ## The result array after the region -/

/-- The result array after the last point is the product of the two arrays as the region found them. -/
theorem arr_eq (c : Dev nD) :
    (dat4 (F := Ideal) V c).arrAt 2 cfg4.N = product (rowsIn V c) (weightIn V c) :=
  (dat4 (F := Ideal) V c).arrAt_eq_of_cover 2 (product (rowsIn V c) (weightIn V c))
    (fun t _ => flushed_eq V c t) covered

/-- Entry (a, b) of the result array after the region: the sum over k of left (a, k) · weight (k, b). -/
theorem arr (c : Dev nD) (a : Fin 100000) (b : Fin 128) :
    (dat4 (F := Ideal) V c).arrAt 2 cfg4.N (ix2 a b)
      = ∑ k : Fin 128, rowsIn V c (ix2 a k) * weightIn V c (ix2 k b) := by
  rw [arr_eq]
  rfl

/-- The two operands are the arrays the region's first two windows stage. -/
theorem rowsIn_eq (c : Dev nD) : rowsIn V c = V c main_v104 := rfl
theorem weightIn_eq (c : Dev nD) : weightIn V c = V c main_v106 := rfl

end Cert.KernelIdeal.Reg4

end
-- ==== Proof.Reg5.lean ====
/- Region 5 adds a bias vector to every row of a [100000,128] array, 2000 rows per grid point over fifty points.
   Here: the body's arithmetic at one entry of a block, what each point writes back as a block of ONE whole-array
   function, the tiling of the rows by the fifty blocks, and so the array after the region, entry by entry. -/
import proofs.«424323_j36094905155901_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Reg5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The row array the region reads, as it stands when the region is entered. -/
abbrev rowsIn (c : Dev nD) : FVec Ideal S100000x128 .f32 := V c main_v131
/-- The bias vector, one entry per column. -/
abbrev biasIn (c : Dev nD) : FVec Ideal S128 .f32 := V c main_v108

/-- The column of an index of the row array, as a number below 128. -/
abbrev colOf (i : S100000x128.Idx) : Fin 128 := ⟨(i 1).val, idx2_lt1 i⟩

/-- The result: every row has the bias vector added to it, entry by entry. -/
abbrev biased (A : FVec Ideal S100000x128 .f32) (Bv : FVec Ideal S128 .f32) : FVec Ideal S100000x128 .f32 :=
  fun i => FloatOps.addf (A i) (Bv (ix1 (colOf i)))

theorem off2 : (![0, 0] : Fin 2 → Nat) = fun _ => 0 := funext fun a => by fin_cases a <;> rfl
theorem off1 : (![0] : Fin 1 → Nat) = fun _ => 0 := funext fun a => by fin_cases a; rfl

/-- The body's arithmetic at one entry of a block: the block's entry plus the bias of its column. -/
theorem pay_apply (x0 : FVec Ideal S2000x128 .f32) (x1 : FVec Ideal S128 .f32) (p : Fin 2000) (q : Fin 128) :
    k5_pay1 (F := Ideal) x0 x1 (ix2 p q) = FloatOps.addf (x0 (ix2 p q)) (x1 (ix1 q)) := by
  unfold k5_pay1
  show FloatOps.addf _ _ = _
  rw [shapeCast_self, broadcastTo_1b_ab_apply, shapeCast_a_1a_apply, shapeCast_self]

/-- The printed block index maps over the grid: the row windows sit at block (t, 0), the bias window at block 0. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point `t` writes back is block `t` (rows 2000 t … 2000 t + 1999) of the biased array. -/
theorem flushed_eq (c : Dev nD) (t : Fin cfg5.N) :
    (dat5 (F := Ideal) V c).flushed 2 t
      = ((cfg5.win 2).blk t).view.read (Elt Ideal) (biased (rowsIn V c) (biasIn V c)) := by
  show (cfg5.win 2).cut (grid5.coords t) ((dat5 V c).after 2 t) = _
  rw [after5_2]
  unfold out5_2
  rw [View.canon_unit_zero off2]
  simp only [View.ld_unit_zero (S := S2000x128) off2, View.ld_unit_zero (S := S128) off1]
  obtain ⟨e00, e01, e10, e20, e21⟩ := idx_facts t
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (ix2 p q)
    = biased (rowsIn V c) (biasIn V c) (((cfg5.win 2).blk t).view.emb (ix2 p q))
  refine (pay_apply (iblk5 V c 0 t) (iblk5 V c 1 t) p q).trans ?_
  have h0 : iblk5 V c 0 t (ix2 p q) = rowsIn V c (((cfg5.win 2).blk t).view.emb (ix2 p q)) := by
    show V c main_v131 (((cfg5.win 0).blk t).view.emb (ix2 p q)) = V c main_v131 (((cfg5.win 2).blk t).view.emb (ix2 p q))
    refine congrArg (V c main_v131) (funext fun a => Fin.ext ?_)
    match a with
    | ⟨0, _⟩ => show win5_0.index t (0 : Fin 2) * 2000 + 1 * p.val = win5_2.index t (0 : Fin 2) * 2000 + 1 * p.val; rw [e00, e20]
    | ⟨1, _⟩ => show win5_0.index t (1 : Fin 2) * 128 + 1 * q.val = win5_2.index t (1 : Fin 2) * 128 + 1 * q.val; rw [e01, e21]
  have h1 : iblk5 V c 1 t (ix1 q) = biasIn V c (ix1 (colOf (((cfg5.win 2).blk t).view.emb (ix2 p q)))) := by
    show V c main_v108 (((cfg5.win 1).blk t).view.emb (ix1 q)) = V c main_v108 (ix1 (colOf (((cfg5.win 2).blk t).view.emb (ix2 p q))))
    refine congrArg (V c main_v108) (funext fun a => Fin.ext ?_)
    match a with
    | ⟨0, _⟩ => show win5_1.index t (0 : Fin 1) * 128 + 1 * q.val = win5_2.index t (1 : Fin 2) * 128 + 1 * q.val; rw [e10, e21]
  rw [h0, h1]

/-- An index of the array is in point `t`'s block iff each coordinate is in the block's range on its axis. -/
theorem mem_blk (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v132).slice (win5_2.rect t)).set ↔ _
  rw [View.set_slice_whole, Rect.mem_set_unit]
  exact Iff.rfl

/-- Row `r` lies in the block of point `r / 2000`: the fifty blocks of 2000 rows tile the 100000 rows. -/
theorem cover (i : S100000x128.Idx) :
    ∃ t : Fin cfg5.N, (cfg5.win 2).flush t = true ∧ i ∈ ((cfg5.win 2).blk t).view.set := by
  have hN : cfg5.N = 50 := N_5
  have hi0 : (i 0).val < 100000 := (i 0).isLt
  have hi1 : (i 1).val < 128 := (i 1).isLt
  let t : Fin cfg5.N := ⟨(i 0).val / 2000, by rw [hN]; omega⟩
  obtain ⟨e00, e01, e10, e20, e21⟩ := idx_facts t
  have ht : t.val = (i 0).val / 2000 := rfl
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; rw [e20, ht]; omega
  | ⟨1, _⟩ => show win5_2.index t (1 : Fin 2) * 128 ≤ (i 1).val ∧ (i 1).val < win5_2.index t (1 : Fin 2) * 128 + 128; rw [e21]; omega

/-- The array after the region: every entry is the input's entry plus the bias of its column. -/
theorem final (c : Dev nD) : (dat5 (F := Ideal) V c).arrAt 2 cfg5.N = biased (rowsIn V c) (biasIn V c) :=
  (dat5 (F := Ideal) V c).arrAt_eq_of_cover 2 (biased (rowsIn V c) (biasIn V c)) (fun t _ => flushed_eq V c t) cover

theorem arr (c : Dev nD) (a : Fin 100000) (b : Fin 128) :
    (dat5 (F := Ideal) V c).arrAt 2 cfg5.N (ix2 a b)
      = FloatOps.addf (F := Ideal) (φ := .f32) ((V c main_v131 : FVec Ideal S100000x128 .f32) (ix2 a b)) ((V c main_v108 : FVec Ideal S128 .f32) (ix1 b)) := by
  rw [final V c]

end Cert.KernelIdeal.Reg5
end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.Reg6Pay.lean ====
/-
  The pooling kernel's arithmetic, entry by entry.

  One grid point of the pooling kernel holds 2000 rows: their graph ids (one 32-bit word per row) and their 128 features.
  It builds the 2000 × 512 indicator matrix whose entry (r, g) is 1 when row r's id is the word of g and 0 otherwise,
  and adds to the running 512 × 128 block of per-graph sums the product of the TRANSPOSED indicator matrix with the
  feature block: entry (g, f) grows by the sum over the 2000 rows r of indicator(r, g) · feature(r, f). Over the extended
  reals 1 · x = x and 0 · x = 0 for every x, infinite or not, so that sum is the sum of the features of the rows whose id
  is g.
-/
import proofs.«424323_j36094905155901_2_alg».proof.Proof.Gen.KernelIdeal.Skeleton
import proofs.«424323_j36094905155901_2_alg».proof.Proof.LibBlockSum
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.Reg6

open Cert.KernelIdeal Cert.KernelIdeal.Gen
open Idealize.ShloMosaic Idealize.ShloMosaic.ValueIdx Idealize.SL.Sem

/-! ## A matrix product that contracts the ROWS of both operands -/

/-- For dimension numbers that contract axis 0 of a `K × M` left operand with axis 0 of a `K × N` right operand and have
    no batch axes, the contraction index is one coordinate `k : Fin K`, the left operand is read at `(k, a)` and the
    right operand at `(k, b)`. -/
theorem rows_sum {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    {α : Type} [AddCommMonoid α] (f : (⟨2, ![K, M]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 k a) (ix2 k b) := by
  obtain ⟨lc, rc, ln, rn, lb, rb, wf⟩ := d
  dsimp only at h1 h2 h3 h4 h5 h6
  subst h1 h2 h3 h4 h5 h6
  have hr : (DotDims.mk [0] [0] [1] [1] [] [] wf : DotDims ⟨2, ![K, M]⟩ ⟨2, ![K, N]⟩ ⟨2, ![M, N]⟩).contr.rank = 1 := rfl
  have hs : (DotDims.mk [0] [0] [1] [1] [] [] wf : DotDims ⟨2, ![K, M]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- Such a product into the zero accumulator, over the extended reals, at entry `(a, b)`. -/
theorem rows_matmul_zero_apply {K M N : Nat} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = []) {φ₁ φ₂ : FTy}
    (prec : Option ContractPrecision) (l : FVec Ideal ⟨2, ![K, M]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 k a) * r (ix2 k b) := by
  show FloatOps.matmul d prec l r (constant ⟨2, ![M, N]⟩ .f32 0x00000000#32) (ix2 a b) = _
  rw [Ideal.matmul_constant_zero_apply]
  exact rows_sum d h1 h2 h3 h4 h5 h6 (fun i j => l i * r j) a b

/-! ## The indicator of "this row belongs to graph g" -/

/-- The comparison's bit, widened to a word and read as a signed integer, as an extended real: one where the words are
    equal, zero elsewhere. -/
theorem indicator_eq (w v : BitVec 32) :
    FloatOps.sitofp (F := Ideal) .f32 ((IntOp.cmpi .eq w v).setWidth 32) = if w = v then (1 : EReal) else 0 := by
  show ((((IntOp.cmpi .eq w v).setWidth 32).toInt : ℝ) : EReal) = _
  unfold IntOp.cmpi
  by_cases h : w = v
  · rw [if_pos h]
    have hb : (w == v) = true := by simpa using h
    rw [hb]
    have e : ((BitVec.ofBool true).setWidth 32).toInt = 1 := by decide
    rw [e]; simp
  · rw [if_neg h]
    have hb : (w == v) = false := by simpa using h
    rw [hb]
    have e : ((BitVec.ofBool false).setWidth 32).toInt = 0 := by decide
    rw [e]; simp

/-! ## The body's two stored values at an entry -/

/-- The reset stores zero everywhere. -/
theorem zero_apply (j : S512x128.Idx) : (k6_pay1 (F := Ideal)) j = 0 := by
  show Ideal.ofBits .f32 0x00000000#32 = 0
  exact Ideal.ofBits_zero_f32

/-- The accumulation: entry `(g, f)` of the running block grows by the features, at `f`, of the rows whose id is the
    word of `g`. -/
theorem update_apply (ids : Vec Ideal S2000x1 .i32) (h : Vec Ideal S2000x128 .f32) (acc : Vec Ideal S512x128 .f32)
    (g : Fin 512) (f : Fin 128) :
    k6_pay2 (F := Ideal) ids h acc (ix2 g f)
      = acc (ix2 g f) + ∑ k : Fin 2000, if ids (ix2 k (0 : Fin 1)) = BitVec.ofNat 32 g.val then h (ix2 k f) else 0 := by
  unfold k6_pay2
  dsimp only
  rw [shapeCast_self, shapeCast_self, shapeCast_self]
  refine (addf_apply _ _ _).trans ?_
  refine congrArg (acc (ix2 g f) + ·) ?_
  refine (rows_matmul_zero_apply dot_S2000x512_S2000x128_S512x128_0_0_1_1_n_n rfl rfl rfl rfl rfl rfl none _ _ g f).trans ?_
  refine Finset.sum_congr rfl fun k _ => ?_
  show FloatOps.sitofp (F := Ideal) .f32
      ((IntOp.cmpi .eq (broadcastTo S2000x512 ids broadcasts_S2000x1_S2000x512 (ix2 k g))
        (iota .tc S2000x512 32 [1] iota_S2000x512_d1_w32 (ix2 k g))).setWidth 32) * h (ix2 k f) = _
  rw [broadcastTo_apply ids broadcasts_S2000x1_S2000x512 (ix2 k g) (ix2 k (0 : Fin 1))
      (fun a => by match a with
        | ⟨0, _⟩ => exact rfl
        | ⟨1, _⟩ => exact rfl),
    iota_single_apply, indicator_eq, Cert.LibBlockSum.ite_one_zero_mul]

end Cert.KernelIdeal.Reg6

end
-- ==== Proof.Reg6Out.lean ====
/-
  What one grid point of the pooling kernel leaves in the block of per-graph sums.

  The block of per-graph sums stays in place across the 50 grid points. At the first point the body overwrites it with
  zeros and then stores "block + update" computed from the zeros it has just written; at every other point it stores
  "block + update" computed from what the point before left. In both cases the last store covers the whole 512 × 128
  block, so what the point leaves is exactly that stored value, a function of the point's two input blocks (2000 graph
  ids, 2000 × 128 features) and of the block's previous contents (zeros at the first point).
-/
import proofs.«424323_j36094905155901_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Reg6

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

/-- Every access of the body starts at the origin of its buffer. -/
theorem origin : (![0, 0] : Fin 2 → Nat) = fun _ => 0 := funext fun a => by fin_cases a <;> rfl

/-- A point other than the first leaves, in the block holding `xo`, the update of `xo` by the point's input blocks: its one
    store covers the block, and its loads read the whole buffers. -/
theorem out_B (c : Dev nD) (i : grid6.Coords) (a1 : Memref sig .tc .vmem S2000x1 .i32) (h1 : a1.IsWhole)
    (a2 : Memref sig .tc .vmem S2000x128 .f32) (h2 : a2.IsWhole) (a3 : Memref sig .tc .vmem S512x128 .f32) (h3 : a3.IsWhole)
    (hc : ¬cond6_0 i) (x0 : Vec F S2000x1 .i32) (x1 : Vec F S2000x128 .f32) (xo : Vec F S512x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero origin]
  simp only [View.readAt_eq_ld, h1.read_unread, h2.read_unread, h3.read_unread, View.ld_unit_zero (S := S2000x1) origin,
    View.ld_unit_zero (S := S2000x128) origin, View.ld_unit_zero (S := S512x128) origin]

/-- The first point leaves the update of the ZERO block by its input blocks: it stores zeros over the whole block, reads
    them back, and stores the update over the whole block. -/
theorem out_A (c : Dev nD) (i : grid6.Coords) (a1 : Memref sig .tc .vmem S2000x1 .i32) (h1 : a1.IsWhole)
    (a2 : Memref sig .tc .vmem S2000x128 .f32) (h2 : a2.IsWhole) (a3 : Memref sig .tc .vmem S512x128 .f32) (h3 : a3.IsWhole)
    (hc : cond6_0 i) (x0 : Vec F S2000x1 .i32) (x1 : Vec F S2000x128 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S512x128) origin, View.readCov_unit_zero (S := S512x128) _ origin]
  simp only [View.readAt_eq_ld, h1.read_unread, h2.read_unread, View.ld_unit_zero (S := S2000x1) origin,
    View.ld_unit_zero (S := S2000x128) origin]

end Cert.KernelIdeal.Reg6

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.Reg6.lean ====
/-
  The pooling region: its output array holds the per-graph sums of the node features.

  The region runs 50 grid points. Point t sees rows 2000 t, …, 2000 t + 1999 of two arrays, the graph id of every node
  (one 32-bit word per row) and the 128 features of every node, and one 512 × 128 block of per-graph sums that stays in
  place from point to point and is written back to its array once, after the last point. The first point resets the
  block to zero before it adds; every point adds, to entry (g, f), feature f of those of its rows whose id is the word
  of g. Hence after point t the block holds the sum over the rows of points 0, …, t, after the last point the sum over
  all 100000 rows, and that is what the output array ends holding: the sum of zero and s is s, and the 50 blocks of
  2000 rows are the 100000 rows, block by block.
-/
import proofs.«424323_j36094905155901_2_alg».proof.Proof.Gen.KernelIdeal.Frame
import proofs.«424323_j36094905155901_2_alg».proof.Proof.Reg6Pay
import proofs.«424323_j36094905155901_2_alg».proof.Proof.Reg6Out
import proofs.«424323_j36094905155901_2_alg».proof.Proof.LibBlockSum
import proofs.«424323_j36094905155901_2_alg».proof.Proof.LibAcc
import Idealize.ShloMosaic.PureOps.Ideal
import Idealize.ShloMosaic.Lib.Pipeline.Value
import Idealize.ShloMosaic.Lib.Tactic
import Idealize.ShloMosaic.Lib.ValueIdx

set_option maxRecDepth 16384

noncomputable section

open scoped BigOperators

namespace Cert.KernelIdeal.Reg6

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat)

variable (V : (c : Dev nD) → (b : Ref sig .tc) → Buf (Elt Ideal) ((c : Thread nD τ).loc b))

/-! ## The two input arrays and their blocks -/

/-- The graph id of every node: one 32-bit word per row. -/
abbrev ids (c : Dev nD) : Vec Ideal S100000x1 .i32 := V c main_v4
/-- The features of every node. -/
abbrev feat (c : Dev nD) : Vec Ideal S100000x128 .f32 := V c main_v132
/-- The ids of the 2000 nodes of point `t`. -/
abbrev idblk (c : Dev nD) (t : Fin cfg6.N) : Vec Ideal S2000x1 .i32 := iblk6 V c 0 t
/-- The features of the 2000 nodes of point `t`. -/
abbrev featblk (c : Dev nD) (t : Fin cfg6.N) : Vec Ideal S2000x128 .f32 := iblk6 V c 1 t

/-- The grid has 50 points. -/
theorem lt_fifty (t : Fin cfg6.N) : t.val < 50 := lt_of_lt_of_eq t.isLt (show cfg6.N = 50 from N_6)

/-- Node `k` of point `n` is row `2000 n + k` of the arrays. -/
def row (n : ℕ) (hn : n < 50) (k : Fin 2000) : Fin 100000 := ⟨2000 * n + k.val, by have := k.isLt; omega⟩

/-- Where the three windows' blocks sit at point `t`: the input blocks at block row `t`, the output block at the origin. -/
theorem block_index : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- The id block of point `t` holds the ids of rows `2000 t`, …, `2000 t + 1999`. -/
theorem idblk_apply (c : Dev nD) (t : Fin cfg6.N) (k : Fin 2000) :
    idblk V c t (ix2 k (0 : Fin 1)) = ids V c (ix2 (row t.val (lt_fifty t) k) (0 : Fin 1)) := by
  obtain ⟨e0, e1, -⟩ := block_index t
  show V c main_v4 (((cfg6.win 0).blk t).view.emb (ix2 k (0 : Fin 1))) = V c main_v4 (ix2 (row t.val (lt_fifty t) k) (0 : Fin 1))
  refine congrArg (V c main_v4) (funext fun a => Fin.ext ?_)
  match a with
  | ⟨0, _⟩ => show win6_0.index t (0 : Fin 2) * 2000 + 1 * k.val = 2000 * t.val + k.val; rw [e0]; omega
  | ⟨1, _⟩ => show win6_0.index t (1 : Fin 2) * 1 + 1 * 0 = 0; rw [e1]

/-- The feature block of point `t` holds the features of the same rows. -/
theorem featblk_apply (c : Dev nD) (t : Fin cfg6.N) (k : Fin 2000) (f : Fin 128) :
    featblk V c t (ix2 k f) = feat V c (ix2 (row t.val (lt_fifty t) k) f) := by
  obtain ⟨-, -, e0, e1, -⟩ := block_index t
  show V c main_v132 (((cfg6.win 1).blk t).view.emb (ix2 k f)) = V c main_v132 (ix2 (row t.val (lt_fifty t) k) f)
  refine congrArg (V c main_v132) (funext fun a => Fin.ext ?_)
  match a with
  | ⟨0, _⟩ => show win6_1.index t (0 : Fin 2) * 2000 + 1 * k.val = 2000 * t.val + k.val; rw [e0]; omega
  | ⟨1, _⟩ => show win6_1.index t (1 : Fin 2) * 128 + 1 * f.val = f.val; rw [e1]; omega

/-! ## The running block, point by point -/

/-- What point `n` adds to entry `(g, f)`: the features at `f` of those of its 2000 rows whose id is the word of `g`. -/
def gain (c : Dev nD) (g : Fin 512) (f : Fin 128) (n : ℕ) (hn : n < 50) : EReal :=
  ∑ k : Fin 2000, if ids V c (ix2 (row n hn k) (0 : Fin 1)) = BitVec.ofNat 32 g.val then feat V c (ix2 (row n hn k) f) else 0

theorem gain_congr (c : Dev nD) (g : Fin 512) (f : Fin 128) {n n' : ℕ} (e : n = n') (h : n < 50) (h' : n' < 50) :
    gain V c g f n h = gain V c g f n' h' := by subst e; rfl

theorem outs_congr (c : Dev nD) {n n' : ℕ} (e : n = n') (h : n < cfg6.N) (h' : n' < cfg6.N) :
    outsAt6 V c n h = outsAt6 V c n' h' := by subst e; rfl

/-- After the first point an entry holds zero plus that point's gain. -/
theorem first_point (c : Dev nD) (t : Fin cfg6.N) (h0 : t.val % 50 = 0) (g : Fin 512) (f : Fin 128) :
    outsAt6 V c t.val t.isLt (ix2 g f) = 0 + gain V c g f t.val (lt_fifty t) := by
  rw [outsAt6_A V c t h0]
  refine (congrFun (out_A (F := Ideal) c (grid6.coords t) (ms6_0 t) (hs6_0 t) (ms6_1 t) (hs6_1 t) (ms6_2 t) (hs6_2 t)
    ((hcond6_0 t).mpr h0) (idblk V c t) (featblk V c t)) (ix2 g f)).trans ?_
  refine (update_apply (idblk V c t) (featblk V c t) (k6_pay1 (F := Ideal)) g f).trans ?_
  rw [zero_apply]
  refine congrArg (0 + ·) (Finset.sum_congr rfl fun k _ => ?_)
  rw [idblk_apply, featblk_apply]

/-- After any other point it holds what the point before left plus the point's gain. -/
theorem later_point (c : Dev nD) (t : Fin cfg6.N) (h0 : ¬t.val % 50 = 0) (g : Fin 512) (f : Fin 128) :
    outsAt6 V c t.val t.isLt (ix2 g f)
      = outsAt6 V c (t.val - 1) (Nat.lt_of_le_of_lt (Nat.sub_le _ _) t.isLt) (ix2 g f) + gain V c g f t.val (lt_fifty t) := by
  rw [outsAt6_B V c t h0]
  refine (congrFun (out_B (F := Ideal) c (grid6.coords t) (ms6_0 t) (hs6_0 t) (ms6_1 t) (hs6_1 t) (ms6_2 t) (hs6_2 t)
    (fun h => h0 ((hcond6_0 t).mp h)) (idblk V c t) (featblk V c t)
    (outsAt6 V c (t.val - 1) (Nat.lt_of_le_of_lt (Nat.sub_le _ _) t.isLt))) (ix2 g f)).trans ?_
  refine (update_apply (idblk V c t) (featblk V c t)
    (outsAt6 V c (t.val - 1) (Nat.lt_of_le_of_lt (Nat.sub_le _ _) t.isLt)) g f).trans ?_
  refine congrArg (_ + ·) (Finset.sum_congr rfl fun k _ => ?_)
  rw [idblk_apply, featblk_apply]

/-- So after the last point it holds the sum of the 50 gains. -/
theorem last_point (c : Dev nD) (t : Fin cfg6.N) (h49 : t.val = 49) (g : Fin 512) (f : Fin 128) :
    outsAt6 V c t.val t.isLt (ix2 g f) = ∑ i : Fin 50, gain V c g f i.val i.isLt := by
  have hN : cfg6.N = 50 := N_6
  have key := Cert.LibAcc.acc_last_zero (M := EReal) 50 1
    (fun n hn => outsAt6 V c n (by omega) (ix2 g f))
    (fun n hn => gain V c g f n (by omega)) 0 rfl
    (fun n hn h => first_point V c ⟨n, by omega⟩ h g f)
    (fun n hn h => later_point V c ⟨n, by omega⟩ h g f)
    (by norm_num) (0 : Fin 1)
  refine (congrFun (outs_congr V c (h49.trans (by decide : 49 = (0 : Fin 1).val * 50 + (50 - 1))) t.isLt (by omega)) (ix2 g f)).trans
    (key.trans ?_)
  refine Finset.sum_congr rfl fun i _ => gain_congr V c g f ?_ _ _
  show 0 * 50 + i.val = i.val
  omega

/-- The 50 gains together run over all 100000 rows. -/
theorem sum_gains (c : Dev nD) (g : Fin 512) (f : Fin 128) :
    ∑ i : Fin 50, gain V c g f i.val i.isLt
      = ∑ r : Fin 100000, if ids V c (ix2 r (0 : Fin 1)) = BitVec.ofNat 32 g.val then feat V c (ix2 r f) else 0 := by
  rw [Cert.LibBlockSum.sum_blocks (B := 50) (R := 2000) (N := 100000) (by norm_num)
    (fun r => if ids V c (ix2 r (0 : Fin 1)) = BitVec.ofNat 32 g.val then feat V c (ix2 r f) else 0)]
  rfl

/-! ## The array of per-graph sums after the region -/

/-- Entry `(g, f)` of the per-graph sums: the features at `f` of all rows whose id is the word of `g`, added up. -/
def pooledAt (c : Dev nD) (g : Fin 512) (f : Fin 128) : EReal :=
  ∑ r : Fin 100000, if ids V c (ix2 r (0 : Fin 1)) = BitVec.ofNat 32 g.val then feat V c (ix2 r f) else 0

/-- The per-graph sums as a 512 × 128 array. -/
def pooled (c : Dev nD) : Vec Ideal S512x128 .f32 := fun j => pooledAt V c (j 0) (j 1)

/-- The block after the last point IS the array of per-graph sums. -/
theorem outs_last (c : Dev nD) (t : Fin cfg6.N) (h49 : t.val = 49) : outsAt6 V c t.val t.isLt = pooled V c := by
  funext j
  obtain ⟨g, f, rfl⟩ : ∃ (g : Fin 512) (f : Fin 128), j = ix2 g f := ⟨j 0, j 1, eq_ix2 j⟩
  exact (last_point V c t h49 g f).trans (sum_gains V c g f)

/-- The one write-back, after the last point, writes the per-graph sums: the block at the origin of a 512 × 128 array is
    the array. -/
theorem flushed_eq (c : Dev nD) (t : Fin cfg6.N) (hf : (cfg6.win 2).flush t = true) :
    (dat6 V c).flushed 2 t = ((cfg6.win 2).blk t).view.read (Elt Ideal) (pooled V c) := by
  have h49 : t.val = 49 := by have := (flush6_2 t).mp hf; have := lt_fifty t; omega
  obtain ⟨-, -, -, -, e0, e1⟩ := block_index t
  show (cfg6.win 2).cut (grid6.coords t) ((dat6 V c).after 2 t) = _
  rw [after6_2, outs_last V c t h49]
  have hz' : (fun a => win6_2.index t a * main_v133.ty.shape.size a) = fun _ => 0 := funext fun a => by
    match a with
    | ⟨0, _⟩ => show win6_2.index t (0 : Fin 2) * 512 = 0; rw [e0]
    | ⟨1, _⟩ => show win6_2.index t (1 : Fin 2) * 128 = 0; rw [e1]
  exact (Memref.read_access_unit_zero (Elt Ideal) main_v133 hz' (fun a => by rw [congrFun hz' a]; simp) (pooled V c)).symm

/-- The last point. -/
def lastPoint : Fin cfg6.N := ⟨49, by rw [show cfg6.N = 50 from N_6]; decide⟩

/-- Its block covers the whole array. -/
theorem cover (i : S512x128.Idx) :
    ∃ t : Fin cfg6.N, (cfg6.win 2).flush t = true ∧ i ∈ ((cfg6.win 2).blk t).view.set := by
  refine ⟨lastPoint, (flush6_2 lastPoint).mpr rfl, ?_⟩
  obtain ⟨-, -, -, -, e0, e1⟩ := block_index lastPoint
  show i ∈ ((View.whole main_v133).slice (win6_2.rect lastPoint)).set
  rw [View.set_slice_whole, Rect.mem_set_unit]
  intro a
  have h0 : (i 0 : Nat) < 512 := (i 0).isLt
  have h1 : (i 1 : Nat) < 128 := (i 1).isLt
  match a with
  | ⟨0, _⟩ =>
    show win6_2.index lastPoint (0 : Fin 2) * 512 ≤ (i 0 : Nat) ∧ (i 0 : Nat) < win6_2.index lastPoint (0 : Fin 2) * 512 + 512
    rw [e0]; omega
  | ⟨1, _⟩ =>
    show win6_2.index lastPoint (1 : Fin 2) * 128 ≤ (i 1 : Nat) ∧ (i 1 : Nat) < win6_2.index lastPoint (1 : Fin 2) * 128 + 128
    rw [e1]; omega

/-- The array of per-graph sums after the region, as a function. -/
theorem arr_eq (c : Dev nD) : (dat6 (F := Ideal) V c).arrAt 2 cfg6.N = pooled V c :=
  (dat6 V c).arrAt_eq_of_cover 2 (pooled V c) (flushed_eq V c) cover

/-- THE RESULT of the pooling region: entry `(g, f)` of its output array is the sum, over the 100000 nodes whose graph id
    is the word of `g`, of feature `f`. -/
theorem arr (c : Dev nD) (g : Fin 512) (f : Fin 128) :
    (dat6 (F := Ideal) V c).arrAt 2 cfg6.N (ix2 g f)
      = ∑ r : Fin 100000, if ids V c (ix2 r (0 : Fin 1)) = BitVec.ofNat 32 g.val then feat V c (ix2 r f) else 0 :=
  congrFun (arr_eq V c) (ix2 g f)

end Cert.KernelIdeal.Reg6

end
-- ==== Proof.Reg7.lean ====
/-
  The final linear layer (the program's last kernel region): the result array after the region's one grid point.

  The grid has one point and every window is its whole array, so the one block of each input is the array itself and
  the one block written back covers the result. The body's value at entry (g, j) is the sum over k of
  x (g, k) * w (k, j) plus b j, with x : [512, 128] the pooled matrix, w : [128, 40] the weights and b : [40] the bias:
  the narrowing of the operands is the identity on extended reals, the product into the zero accumulator is the sum
  over the contracted axis, and the bias is read through its view as one row repeated over the 512 rows.
-/
import proofs.«424323_j36094905155901_2_alg».proof.Proof.Gen.KernelIdeal.Frame
import proofs.«424323_j36094905155901_2_alg».proof.Proof.LibDot
import Idealize.ShloMosaic.Lib.Pipeline.Value
import Idealize.ShloMosaic.Lib.ValueLayout
import Idealize.ShloMosaic.Lib.ValueIdx

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Reg7

variable (V : (c : Dev nD) → (b : Ref sig .tc) → Buf (Elt Ideal) ((c : Thread nD τ).loc b))

/-! # The final linear layer: what its one grid point leaves in the result array

The region's grid has one point, and each of its four windows is its whole array. The body multiplies the pooled
matrix x : [512, 128] by the weights w : [128, 40] into a zero accumulator and adds the bias b : [40] to every
row. So the result array ends holding, at (g, j), the sum over k of x (g, k) * w (k, j), plus b j. -/

/-- The region's three input arrays, as it finds them. -/
abbrev pooled (c : Dev nD) : Vec Ideal S512x128 .f32 := V c main_v147
abbrev weight (c : Dev nD) : Vec Ideal S128x40 .f32 := V c main_arg9
abbrev bias (c : Dev nD) : Vec Ideal S40 .f32 := V c main_arg10

/-- The layer as one function of its three arrays: entry (g, j) is the dot product of row g of x with column
    j of w, plus entry j of the bias. -/
def lin (x : Vec Ideal S512x128 .f32) (w : Vec Ideal S128x40 .f32) (b : Vec Ideal S40 .f32) : Vec Ideal S512x40 .f32 :=
  fun i => FloatOps.addf (F := Ideal) (φ := .f32) (∑ k : Fin 128, x (ix2 (i 0) k) * w (ix2 k (i 1))) (b (ix1 (i 1)))

/-! ## The body's arithmetic at an entry -/

/-- The body's value at entry (g, j): the narrowing of the operands is the identity on extended reals, the product
    into the zero accumulator is the sum over the contracted axis, and the bias, viewed as one row and repeated over the
    512 rows, reads its entry j. -/
theorem pay_apply (x : Vec Ideal S512x128 .f32) (w : Vec Ideal S128x40 .f32) (b : Vec Ideal S40 .f32) (g : Fin 512) (j : Fin 40) :
    k7_pay1 (F := Ideal) x w b (ix2 g j) = FloatOps.addf (∑ k : Fin 128, x (ix2 g k) * w (ix2 k j)) (b (ix1 j)) := by
  unfold k7_pay1
  show FloatOps.addf _ _ = _
  congr 1
  · refine (Cert.LibDot.matmul_zero_apply dot_S512x128_S128x40_S512x40_1_0_0_1_n_n rfl rfl rfl rfl rfl rfl none _ _ g j).trans ?_
    refine Finset.sum_congr rfl fun k _ => ?_
    rw [truncf_apply, truncf_apply, shapeCast_self]
  · refine (broadcastTo_1b_ab_apply _ broadcasts_S1x40_S512x40 g j).trans ?_
    exact shapeCast_a_1a_apply b shapeCasts_S40_S1x40 0 j

/-- So the body's value is the layer's function of the blocks it loaded. -/
theorem pay_eq_lin (x : Vec Ideal S512x128 .f32) (w : Vec Ideal S128x40 .f32) (b : Vec Ideal S40 .f32) :
    k7_pay1 (F := Ideal) x w b = lin x w b := by
  funext i
  obtain ⟨g, j, rfl⟩ : ∃ (g : Fin 512) (j : Fin 40), i = ix2 g j := ⟨i 0, i 1, eq_ix2 i⟩
  exact pay_apply x w b g j

/-! ## From the one block to the array -/

theorem hz2 : (![0, 0] : Fin 2 → Nat) = fun _ => 0 := funext fun a => by fin_cases a <;> rfl
theorem hz1 : (![0] : Fin 1 → Nat) = fun _ => 0 := funext fun a => by fin_cases a <;> rfl

/-- Every window's block index is zero on every axis at every point of the grid. -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0 :=
  (by decide +kernel : ∀ t : Fin grid7.N, _)

theorem iblk0_eq (c : Dev nD) (t : Fin cfg7.N) : (iblk7 V c 0 t : Vec Ideal S512x128 .f32) = pooled V c := by
  obtain ⟨e0, e1, -⟩ := idx_facts t
  funext y
  show V c main_v147 (((cfg7.win 0).blk t).view.emb y) = V c main_v147 y
  refine congrArg _ ?_
  funext a; apply Fin.ext
  match a with
  | ⟨0, _⟩ => show win7_0.index t (0 : Fin 2) * 512 + 1 * (y 0).val = (y 0).val; omega
  | ⟨1, _⟩ => show win7_0.index t (1 : Fin 2) * 128 + 1 * (y 1).val = (y 1).val; omega

theorem iblk1_eq (c : Dev nD) (t : Fin cfg7.N) : (iblk7 V c 1 t : Vec Ideal S128x40 .f32) = weight V c := by
  obtain ⟨-, -, e0, e1, -⟩ := idx_facts t
  funext y
  show V c main_arg9 (((cfg7.win 1).blk t).view.emb y) = V c main_arg9 y
  refine congrArg _ ?_
  funext a; apply Fin.ext
  match a with
  | ⟨0, _⟩ => show win7_1.index t (0 : Fin 2) * 128 + 1 * (y 0).val = (y 0).val; omega
  | ⟨1, _⟩ => show win7_1.index t (1 : Fin 2) * 40 + 1 * (y 1).val = (y 1).val; omega

theorem iblk2_eq (c : Dev nD) (t : Fin cfg7.N) : (iblk7 V c 2 t : Vec Ideal S40 .f32) = bias V c := by
  obtain ⟨-, -, -, -, e0, -⟩ := idx_facts t
  funext y
  show V c main_arg10 (((cfg7.win 2).blk t).view.emb y) = V c main_arg10 y
  refine congrArg _ ?_
  funext a; apply Fin.ext
  match a with
  | ⟨0, _⟩ => show win7_2.index t (0 : Fin 1) * 40 + 1 * (y 0).val = (y 0).val; omega

/-- What the one point writes back is its block of the layer's function of the three arrays. -/
theorem flushed_eq (c : Dev nD) (t : Fin cfg7.N) :
    (dat7 (F := Ideal) V c).flushed 3 t
      = ((cfg7.win 3).blk t).view.read (Elt Ideal) (lin (pooled V c) (weight V c) (bias V c)) := by
  show (cfg7.win 3).cut (grid7.coords t) ((dat7 V c).after 3 t) = _
  rw [after7_3]
  unfold out7_3
  rw [View.canon_unit_zero hz2]
  simp only [View.ld_unit_zero (S := S512x128) hz2, View.ld_unit_zero (S := S128x40) hz2, View.ld_unit_zero (S := S40) hz1]
  rw [iblk0_eq V c t, iblk1_eq V c t, iblk2_eq V c t, pay_eq_lin]
  obtain ⟨-, -, -, -, -, e0, e1⟩ := idx_facts t
  funext y
  show lin (pooled V c) (weight V c) (bias V c) y = lin (pooled V c) (weight V c) (bias V c) (((cfg7.win 3).blk t).view.emb y)
  refine congrArg _ ?_
  funext a; apply Fin.ext
  match a with
  | ⟨0, _⟩ => show (y 0).val = win7_3.index t (0 : Fin 2) * 512 + 1 * (y 0).val; omega
  | ⟨1, _⟩ => show (y 1).val = win7_3.index t (1 : Fin 2) * 40 + 1 * (y 1).val; omega

/-- An index of the result array is in the point's block iff each coordinate is in the block's range on its axis. -/
theorem mem_blk (t : Fin cfg7.N) (i : S512x40.Idx) :
    i ∈ ((cfg7.win 3).blk t).view.set ↔ ∀ a : Fin 2, win7_3.index t a * S512x40.size a ≤ (i a).val ∧ (i a).val < win7_3.index t a * S512x40.size a + S512x40.size a := by
  show i ∈ ((View.whole main_v148).slice (win7_3.rect t)).set ↔ _
  rw [View.set_slice_whole, Rect.mem_set_unit]
  exact Iff.rfl

/-- The one point's block is the whole result array. -/
theorem cover (i : S512x40.Idx) : ∃ t : Fin cfg7.N, (cfg7.win 3).flush t = true ∧ i ∈ ((cfg7.win 3).blk t).view.set := by
  refine ⟨t7_0, flush7_3 t7_0, ?_⟩
  rw [mem_blk]
  obtain ⟨-, -, -, -, -, e0, e1⟩ := idx_facts t7_0
  have h0 : (i 0).val < 512 := (i 0).isLt
  have h1 : (i 1).val < 40 := (i 1).isLt
  intro a
  match a with
  | ⟨0, _⟩ => show win7_3.index t7_0 (0 : Fin 2) * 512 ≤ (i 0).val ∧ (i 0).val < win7_3.index t7_0 (0 : Fin 2) * 512 + 512; omega
  | ⟨1, _⟩ => show win7_3.index t7_0 (1 : Fin 2) * 40 ≤ (i 1).val ∧ (i 1).val < win7_3.index t7_0 (1 : Fin 2) * 40 + 40; omega

/-- THE RESULT ARRAY after the region's one point: the layer's function of the three arrays as the region finds them. -/
theorem final (c : Dev nD) : (dat7 (F := Ideal) V c).arrAt 3 cfg7.N = lin (pooled V c) (weight V c) (bias V c) :=
  (dat7 (F := Ideal) V c).arrAt_eq_of_cover 3 (lin (pooled V c) (weight V c) (bias V c)) (fun t _ => flushed_eq V c t) cover

/-- The result array at entry (g, j): row g of the pooled matrix against column j of the weights, plus the bias at j. -/
theorem arr (c : Dev nD) (g : Fin 512) (j : Fin 40) :
    (dat7 (F := Ideal) V c).arrAt 3 cfg7.N (ix2 g j)
      = FloatOps.addf (F := Ideal) (φ := .f32) (∑ k : Fin 128, pooled V c (ix2 g k) * weight V c (ix2 k j)) (bias V c (ix1 j)) := by
  rw [final]
  rfl

end Cert.KernelIdeal.Reg7

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefRead.lean ====
/-
  The reference network read at one entry.

  The reference is a three-layer graph convolution followed by a mean pool over graphs and a linear head. Between the
  neighbourhood aggregations (gathers and scatters, whose element read depends on the edge list) every stage is
  pointwise or a matrix product, and this module reads each of those at one entry of its result, from the stages it is
  computed from at an entry:

  * the three matrix products  H · W_L  (a sum over the 128 input features);
  * the two normalise-and-rectify epilogues  max(((A + bias − mean) · (gamma · rsqrt(var + ε))) + beta, 0)  of layers
    0 and 1, once as the float operations compose and once written on the extended reals;
  * the last layer's bias add;
  * the pooled sums: entry (g, f) of the scatter-add of the node rows by graph number is the sum, over the nodes whose
    graph number is g, of the node's feature f (graph numbers are assumed to lie in [0, 512), so the wrap-around of a
    negative index never fires);
  * the linear head  pooled · W_out + b_out.

  The aggregations themselves (stages 58, 138, 218 and the stages below them) are left as they are.
-/
import proofs.«424323_j36094905155901_2_alg».proof.Proof.Gen.ReferenceIdeal.Read
import proofs.«424323_j36094905155901_2_alg».proof.Proof.LibIndex
import proofs.«424323_j36094905155901_2_alg».proof.Proof.LibBlockSum
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S3x128x128, .f32⟩ : BufTy).Contents (Elt Ideal))
  (x4 x5 x6 x7 x8 : (⟨S3x128, .f32⟩ : BufTy).Contents (Elt Ideal))
  (x9 : (⟨S128x40, .f32⟩ : BufTy).Contents (Elt Ideal))
  (x10 : (⟨S40, .f32⟩ : BufTy).Contents (Elt Ideal))

/-! ## The linear head -/

/-- Entry (g, j) of the output: row g of the pooled means times column j of the head's weight, plus the head's bias. -/
theorem head_entry (g : Fin 512) (j : Fin 40) :
    val_main_v247 (F := Ideal) x0 x1 x2 x3 x4 x5 x6 x7 x8 x9 x10 (ix2 g j)
      = FloatOps.addf (F := Ideal) (φ := .f32) (∑ k : Fin 128, val_main_v243 (F := Ideal) x0 x1 x2 x3 x4 x5 x6 x7 x8 (ix2 g k) * x9 (ix2 k j))
          (x10 (ix1 j)) := by
  have hl : ∀ k : Fin 128, lidx_main_v244 (ix2 g j) k = ix2 g k := fun k =>
    funext fun d => Fin.ext (by match d with | ⟨0, _⟩ => rfl | ⟨1, _⟩ => rfl)
  have hr : ∀ k : Fin 128, ridx_main_v244 (ix2 g j) k = ix2 k j := fun k =>
    funext fun d => Fin.ext (by match d with | ⟨0, _⟩ => rfl | ⟨1, _⟩ => rfl)
  have hb : idx_main_v245 (idx_main_v246 (ix2 g j)) = ix1 j :=
    funext fun d => Fin.ext (by match d with | ⟨0, _⟩ => rfl)
  rw [val_main_v247_apply, val_main_v244_apply, val_main_v246_apply, val_main_v245_apply, hb]
  simp only [hl, hr]

/-! ## The last layer's bias add -/

/-- Entry (a, b) of the last layer's output: the aggregated entry plus the layer's bias at feature b. -/
theorem layer2_bias_entry (a : Fin 100000) (b : Fin 128) :
    val_main_v221 (F := Ideal) x0 x1 x3 x4 x5 x6 x7 x8 (ix2 a b)
      = FloatOps.addf (F := Ideal) (φ := .f32) (val_main_v218 (F := Ideal) x0 x1 x3 x4 x5 x6 x7 x8 (ix2 a b)) (val_main_v167 (F := Ideal) x4 (ix1 b)) := by
  have hb : idx_main_v219 (idx_main_v220 (ix2 a b)) = ix1 b :=
    funext fun d => Fin.ext (by match d with | ⟨0, _⟩ => rfl)
  rw [val_main_v221_apply, val_main_v220_apply, val_main_v219_apply, hb]

/-! ## The three matrix products -/

/-- Entry (a, b) of layer 0's product: row a of the node features times column b of layer 0's weight. -/
theorem layer0_product_entry (a : Fin 100000) (b : Fin 128) :
    val_main_v8 (F := Ideal) x0 x3 (ix2 a b) = ∑ k : Fin 128, x0 (ix2 a k) * val_main_v5 (F := Ideal) x3 (ix2 k b) := by
  have hl : ∀ k : Fin 128, lidx_main_v8 (ix2 a b) k = ix2 a k := fun k =>
    funext fun d => Fin.ext (by match d with | ⟨0, _⟩ => rfl | ⟨1, _⟩ => rfl)
  have hr : ∀ k : Fin 128, ridx_main_v8 (ix2 a b) k = ix2 k b := fun k =>
    funext fun d => Fin.ext (by match d with | ⟨0, _⟩ => rfl | ⟨1, _⟩ => rfl)
  rw [val_main_v8_apply]
  simp only [hl, hr]

/-- Entry (a, b) of layer 1's product: row a of layer 0's activations times column b of layer 1's weight. -/
theorem layer1_product_entry (a : Fin 100000) (b : Fin 128) :
    val_main_v88 (F := Ideal) x0 x1 x3 x4 x5 x6 x7 x8 (ix2 a b)
      = ∑ k : Fin 128, val_main_v83 (F := Ideal) x0 x1 x3 x4 x5 x6 x7 x8 (ix2 a k) * val_main_v85 (F := Ideal) x3 (ix2 k b) := by
  have hl : ∀ k : Fin 128, lidx_main_v88 (ix2 a b) k = ix2 a k := fun k =>
    funext fun d => Fin.ext (by match d with | ⟨0, _⟩ => rfl | ⟨1, _⟩ => rfl)
  have hr : ∀ k : Fin 128, ridx_main_v88 (ix2 a b) k = ix2 k b := fun k =>
    funext fun d => Fin.ext (by match d with | ⟨0, _⟩ => rfl | ⟨1, _⟩ => rfl)
  rw [val_main_v88_apply]
  simp only [hl, hr]

/-- Entry (a, b) of layer 2's product: row a of layer 1's activations times column b of layer 2's weight. -/
theorem layer2_product_entry (a : Fin 100000) (b : Fin 128) :
    val_main_v168 (F := Ideal) x0 x1 x3 x4 x5 x6 x7 x8 (ix2 a b)
      = ∑ k : Fin 128, val_main_v163 (F := Ideal) x0 x1 x3 x4 x5 x6 x7 x8 (ix2 a k) * val_main_v165 (F := Ideal) x3 (ix2 k b) := by
  have hl : ∀ k : Fin 128, lidx_main_v168 (ix2 a b) k = ix2 a k := fun k =>
    funext fun d => Fin.ext (by match d with | ⟨0, _⟩ => rfl | ⟨1, _⟩ => rfl)
  have hr : ∀ k : Fin 128, ridx_main_v168 (ix2 a b) k = ix2 k b := fun k =>
    funext fun d => Fin.ext (by match d with | ⟨0, _⟩ => rfl | ⟨1, _⟩ => rfl)
  rw [val_main_v168_apply]
  simp only [hl, hr]

/-! ## The two normalise-and-rectify epilogues -/

/-- Entry (a, b) of layer 0's activations, as the float operations compose: the aggregated entry plus the bias, centred by the running mean, scaled by gamma over the root of the running variance plus ε, shifted by beta, and rectified. The parameter rows are read at feature b; ε and the rectifier's zero are the literal words. -/
theorem layer0_norm_relu_entry (a : Fin 100000) (b : Fin 128) :
    val_main_v83 (F := Ideal) x0 x1 x3 x4 x5 x6 x7 x8 (ix2 a b)
      = FloatOps.maximumf (F := Ideal) (φ := .f32)
          (FloatOps.addf (F := Ideal) (φ := .f32)
            (FloatOps.mulf (F := Ideal) (φ := .f32)
              (FloatOps.subf (F := Ideal) (φ := .f32)
                (FloatOps.addf (F := Ideal) (φ := .f32) (val_main_v58 (F := Ideal) x0 x1 x3 (ix2 a b))
                  (val_main_v7 (F := Ideal) x4 (ix1 b)))
                (val_main_v63 (F := Ideal) x7 (ix1 b)))
              (FloatOps.mulf (F := Ideal) (φ := .f32) (val_main_v68 (F := Ideal) x5 (ix1 b))
                (FloatOps.hostUnary (F := Ideal) .rsqrt (φ := .f32)
                  (FloatOps.addf (F := Ideal) (φ := .f32) (val_main_v70 (F := Ideal) x8 (ix1 b))
                    (FloatOps.ofBits (F := Ideal) .f32 0x3727C5AC#32)))))
            (val_main_v79 (F := Ideal) x6 (ix1 b)))
          (FloatOps.ofBits (F := Ideal) .f32 0x00000000#32) := by
  have hbias : idx_main_v59 (idx_main_v60 (ix2 a b)) = ix1 b :=
    funext fun d => Fin.ext (by match d with | ⟨0, _⟩ => rfl)
  have hmean : idx_main_v64 (idx_main_v65 (ix2 a b)) = ix1 b :=
    funext fun d => Fin.ext (by match d with | ⟨0, _⟩ => rfl)
  have hscale : idx_main_v75 (idx_main_v76 (ix2 a b)) = ix1 b :=
    funext fun d => Fin.ext (by match d with | ⟨0, _⟩ => rfl)
  have hbeta : idx_main_v80 (idx_main_v81 (ix2 a b)) = ix1 b :=
    funext fun d => Fin.ext (by match d with | ⟨0, _⟩ => rfl)
  rw [val_main_v83_apply, val_main_v82_apply, val_main_v77_apply, val_main_v66_apply,
    val_main_v61_apply, val_main_v60_apply, val_main_v59_apply, hbias,
    val_main_v65_apply, val_main_v64_apply, hmean,
    val_main_v76_apply, val_main_v75_apply, hscale, val_main_v74_apply, val_main_v73_apply,
    val_main_v72_apply, val_main_v71_apply, val_main_cst_12_apply,
    val_main_v81_apply, val_main_v80_apply, hbeta,
    val_main_call0_v0_apply, val_main_call0_cst_apply]

/-- The same entry on the extended reals: the float operations are the reals' own, the reciprocal square root is the
    ideal one, and the two literals stay as the words they are printed as. -/
theorem layer0_norm_relu_entry_ereal (a : Fin 100000) (b : Fin 128) :
    val_main_v83 (F := Ideal) x0 x1 x3 x4 x5 x6 x7 x8 (ix2 a b)
      = max ((val_main_v58 (F := Ideal) x0 x1 x3 (ix2 a b) + val_main_v7 (F := Ideal) x4 (ix1 b)
                - val_main_v63 (F := Ideal) x7 (ix1 b))
              * (val_main_v68 (F := Ideal) x5 (ix1 b)
                  * Ideal.rsqrt (val_main_v70 (F := Ideal) x8 (ix1 b) + Ideal.ofBits .f32 0x3727C5AC#32))
            + val_main_v79 (F := Ideal) x6 (ix1 b))
          (Ideal.ofBits .f32 0x00000000#32) := by
  rw [layer0_norm_relu_entry]
  simp only [Ideal.mulf_def, Ideal.addf_def, Ideal.subf_def, Ideal.maximumf_def, Ideal.hostUnary_rsqrt_def, Ideal.ofBits_def]

/-- The same with the rectifier's zero word read as the real zero. -/
theorem layer0_norm_relu_entry_ereal_zero (a : Fin 100000) (b : Fin 128) :
    val_main_v83 (F := Ideal) x0 x1 x3 x4 x5 x6 x7 x8 (ix2 a b)
      = max ((val_main_v58 (F := Ideal) x0 x1 x3 (ix2 a b) + val_main_v7 (F := Ideal) x4 (ix1 b)
                - val_main_v63 (F := Ideal) x7 (ix1 b))
              * (val_main_v68 (F := Ideal) x5 (ix1 b)
                  * Ideal.rsqrt (val_main_v70 (F := Ideal) x8 (ix1 b) + Ideal.ofBits .f32 0x3727C5AC#32))
            + val_main_v79 (F := Ideal) x6 (ix1 b))
          0 := by
  rw [layer0_norm_relu_entry_ereal, Ideal.ofBits_zero_f32]

/-- Entry (a, b) of layer 1's activations, as the float operations compose: the same epilogue over layer 1's aggregation and layer 1's parameter rows. -/
theorem layer1_norm_relu_entry (a : Fin 100000) (b : Fin 128) :
    val_main_v163 (F := Ideal) x0 x1 x3 x4 x5 x6 x7 x8 (ix2 a b)
      = FloatOps.maximumf (F := Ideal) (φ := .f32)
          (FloatOps.addf (F := Ideal) (φ := .f32)
            (FloatOps.mulf (F := Ideal) (φ := .f32)
              (FloatOps.subf (F := Ideal) (φ := .f32)
                (FloatOps.addf (F := Ideal) (φ := .f32) (val_main_v138 (F := Ideal) x0 x1 x3 x4 x5 x6 x7 x8 (ix2 a b))
                  (val_main_v87 (F := Ideal) x4 (ix1 b)))
                (val_main_v143 (F := Ideal) x7 (ix1 b)))
              (FloatOps.mulf (F := Ideal) (φ := .f32) (val_main_v148 (F := Ideal) x5 (ix1 b))
                (FloatOps.hostUnary (F := Ideal) .rsqrt (φ := .f32)
                  (FloatOps.addf (F := Ideal) (φ := .f32) (val_main_v150 (F := Ideal) x8 (ix1 b))
                    (FloatOps.ofBits (F := Ideal) .f32 0x3727C5AC#32)))))
            (val_main_v159 (F := Ideal) x6 (ix1 b)))
          (FloatOps.ofBits (F := Ideal) .f32 0x00000000#32) := by
  have hbias : idx_main_v139 (idx_main_v140 (ix2 a b)) = ix1 b :=
    funext fun d => Fin.ext (by match d with | ⟨0, _⟩ => rfl)
  have hmean : idx_main_v144 (idx_main_v145 (ix2 a b)) = ix1 b :=
    funext fun d => Fin.ext (by match d with | ⟨0, _⟩ => rfl)
  have hscale : idx_main_v155 (idx_main_v156 (ix2 a b)) = ix1 b :=
    funext fun d => Fin.ext (by match d with | ⟨0, _⟩ => rfl)
  have hbeta : idx_main_v160 (idx_main_v161 (ix2 a b)) = ix1 b :=
    funext fun d => Fin.ext (by match d with | ⟨0, _⟩ => rfl)
  rw [val_main_v163_apply, val_main_v162_apply, val_main_v157_apply, val_main_v146_apply,
    val_main_v141_apply, val_main_v140_apply, val_main_v139_apply, hbias,
    val_main_v145_apply, val_main_v144_apply, hmean,
    val_main_v156_apply, val_main_v155_apply, hscale, val_main_v154_apply, val_main_v153_apply,
    val_main_v152_apply, val_main_v151_apply, val_main_cst_27_apply,
    val_main_v161_apply, val_main_v160_apply, hbeta,
    val_main_call1_v0_apply, val_main_call1_cst_apply]

/-- The same entry on the extended reals: the float operations are the reals' own, the reciprocal square root is the
    ideal one, and the two literals stay as the words they are printed as. -/
theorem layer1_norm_relu_entry_ereal (a : Fin 100000) (b : Fin 128) :
    val_main_v163 (F := Ideal) x0 x1 x3 x4 x5 x6 x7 x8 (ix2 a b)
      = max ((val_main_v138 (F := Ideal) x0 x1 x3 x4 x5 x6 x7 x8 (ix2 a b) + val_main_v87 (F := Ideal) x4 (ix1 b)
                - val_main_v143 (F := Ideal) x7 (ix1 b))
              * (val_main_v148 (F := Ideal) x5 (ix1 b)
                  * Ideal.rsqrt (val_main_v150 (F := Ideal) x8 (ix1 b) + Ideal.ofBits .f32 0x3727C5AC#32))
            + val_main_v159 (F := Ideal) x6 (ix1 b))
          (Ideal.ofBits .f32 0x00000000#32) := by
  rw [layer1_norm_relu_entry]
  simp only [Ideal.mulf_def, Ideal.addf_def, Ideal.subf_def, Ideal.maximumf_def, Ideal.hostUnary_rsqrt_def, Ideal.ofBits_def]

/-- The same with the rectifier's zero word read as the real zero. -/
theorem layer1_norm_relu_entry_ereal_zero (a : Fin 100000) (b : Fin 128) :
    val_main_v163 (F := Ideal) x0 x1 x3 x4 x5 x6 x7 x8 (ix2 a b)
      = max ((val_main_v138 (F := Ideal) x0 x1 x3 x4 x5 x6 x7 x8 (ix2 a b) + val_main_v87 (F := Ideal) x4 (ix1 b)
                - val_main_v143 (F := Ideal) x7 (ix1 b))
              * (val_main_v148 (F := Ideal) x5 (ix1 b)
                  * Ideal.rsqrt (val_main_v150 (F := Ideal) x8 (ix1 b) + Ideal.ofBits .f32 0x3727C5AC#32))
            + val_main_v159 (F := Ideal) x6 (ix1 b))
          0 := by
  rw [layer1_norm_relu_entry_ereal, Ideal.ofBits_zero_f32]

/-! ## The pooled sums -/

/-- Under the assumption that every node's graph number lies in [0, 512), the index the scatter uses for node r (the
    graph number, with 512 added when it is negative) is the graph number itself. -/
theorem pool_index_entry (hb : ∀ r : Fin 100000, 0 ≤ (x2 (ix1 r) : BitVec 32).toInt ∧ (x2 (ix1 r) : BitVec 32).toInt < 512)
    (r : Fin 100000) :
    val_main_v228 (F := Ideal) x2 (ix2 r (0 : Fin 1)) = x2 (ix1 r) := by
  have hidx : idx_main_v228 (ix2 r (0 : Fin 1)) = ix1 r :=
    funext fun d => Fin.ext (by match d with | ⟨0, _⟩ => rfl)
  have hnot : ¬ ((x2 (ix1 r) : BitVec 32).toInt < (0#32 : BitVec 32).toInt) := by
    have h0 := (hb r).1
    have h4 : (0#32 : BitVec 32).toInt = 0 := by decide
    omega
  have hs : (x2 (ix1 r) : BitVec 32).slt 0#32 = false := decide_eq_false hnot
  have hlt : IntOp.cmpi .slt (x2 (ix1 r) : BitVec 32) 0#32 = 0#1 := by
    show BitVec.ofBool ((x2 (ix1 r) : BitVec 32).slt 0#32) = 0#1
    rw [hs]; rfl
  rw [val_main_v228_apply, hidx, val_main_v227_apply, val_main_v224_apply, val_main_v223_apply, val_main_c_43_apply, hlt,
    select_zero]

/-- Entry (g, f) of the pooled sums: the sum, over the nodes whose graph number is g, of the last layer's output at
    feature f. -/
theorem pooled_sum_entry (hb : ∀ r : Fin 100000, 0 ≤ (x2 (ix1 r) : BitVec 32).toInt ∧ (x2 (ix1 r) : BitVec 32).toInt < 512)
    (g : Fin 512) (f : Fin 128) :
    val_main_v229 (F := Ideal) x0 x1 x2 x3 x4 x5 x6 x7 x8 (ix2 g f)
      = ∑ r : Fin 100000, if x2 (ix1 r) = BitVec.ofNat 32 g.val
          then val_main_v221 (F := Ideal) x0 x1 x3 x4 x5 x6 x7 x8 (ix2 r f) else 0 := by
  have hs := Cert.LibIndex.scatterAdd_row_apply_of scatter_S512x128_S100000x1_S100000x128_1_0_0_1 rfl rfl rfl rfl (φ := .f32)
    (val_main_v222 (F := Ideal)) (val_main_v228 (F := Ideal) x2) (val_main_v221 (F := Ideal) x0 x1 x3 x4 x5 x6 x7 x8) g f
  have hz : val_main_v222 (F := Ideal) (ix2 g f) = 0 := by
    rw [val_main_v222_apply, val_main_cst_42_apply]
    exact Ideal.ofBits_zero_f32
  unfold val_main_v229
  refine hs.trans ?_
  rw [hz, zero_add]
  refine Finset.sum_congr rfl fun r _ => ?_
  rw [pool_index_entry x2 hb r]
  exact if_congr (Cert.LibBlockSum.eq_ofNat_iff_toInt_eq _ g.val (by have := g.isLt; omega)).symm rfl rfl

end Cert.ReferenceIdeal.RefRead

end
-- ==== Proof.Bridge.lean ====
/-
  The kernel program's buffers are the reference's stages.

  Walking @main's segments in order: each product region's array is the reference's `dot_general` stage (both are the
  same sum over the contraction index of the same operands); each host stretch applies the reference's own gather, scaling,
  scatter-add and self-loop sum to it; each epilogue region's array is the reference's bias, batch-norm and ReLU stage,
  entry by entry the same expression of the same operands; the pooling region's one-hot product, accumulated over the
  fifty row blocks, is the reference's scatter-add of the rows by graph id, because every graph id is in [0, 512) and so
  indexes its own row (this is where the precondition is used); the host division by the clamped counts is shared; and
  the classifier region's array is the reference's last product plus bias.
-/
import proofs.«424323_j36094905155901_2_alg».proof.Proof.KHost2
import proofs.«424323_j36094905155901_2_alg».proof.Proof.Reg0
import proofs.«424323_j36094905155901_2_alg».proof.Proof.Reg1
import proofs.«424323_j36094905155901_2_alg».proof.Proof.Reg2
import proofs.«424323_j36094905155901_2_alg».proof.Proof.Reg3
import proofs.«424323_j36094905155901_2_alg».proof.Proof.Reg4
import proofs.«424323_j36094905155901_2_alg».proof.Proof.Reg5
import proofs.«424323_j36094905155901_2_alg».proof.Proof.Reg6
import proofs.«424323_j36094905155901_2_alg».proof.Proof.Reg7
import proofs.«424323_j36094905155901_2_alg».proof.Proof.RefRead

set_option maxRecDepth 16384

noncomputable section

open scoped BigOperators

namespace Cert.KernelIdeal.Bridge

open Cert.KernelIdeal Cert.KernelIdeal.Gen Cert.KernelIdeal.Host Idealize.ShloMosaic Idealize.ShloMosaic.TcCoe
  Idealize.ShloMosaic.ValueIdx Idealize.SL.Sem
open Cert.ReferenceIdeal.Read Cert.ReferenceIdeal.RefRead

variable (m : (ℓ : Loc nD τ sig) → Buf (Elt Ideal) ℓ) (ρ : Dev nD → PrngReg) (c : Dev nD)

/-! ## Layer 1 -/

/-- The first product array is the reference's first `dot_general`. -/
theorem xw1 : W2 m ρ c (Proc.devRef .tc main_v37) = val_main_v8 (m ((c : Thread nD τ).loc main_arg0)) (m ((c : Thread nD τ).loc main_arg3)) := by
  refine (W2_arr m ρ c 2).trans ?_
  funext (i : S100000x128.Idx)
  obtain ⟨a, b, rfl⟩ : ∃ (a : Fin 100000) (b : Fin 128), i = ix2 a b := ⟨i 0, i 1, eq_ix2 i⟩
  have e1 : Reg0.rowsIn (V1 m ρ) c = (m ((c : Thread nD τ).loc main_arg0)) := W1_arg0 m ρ c
  have e2 : Reg0.weightIn (V1 m ρ) c = val_main_v5 (m ((c : Thread nD τ).loc main_arg3)) := W1_v34 m ρ c
  rw [Reg0.arr (V1 m ρ) c a b, e1, e2]
  exact (layer0_product_entry (m ((c : Thread nD τ).loc main_arg0)) (m ((c : Thread nD τ).loc main_arg3)) a b).symm

/-- The first layer's output is the reference's first ReLU stage. -/
theorem h1 : W4 m ρ c (Proc.devRef .tc main_v68) = val_main_v83 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ?_
  funext (i : S100000x128.Idx)
  obtain ⟨a, b, rfl⟩ : ∃ (a : Fin 100000) (b : Fin 128), i = ix2 a b := ⟨i 0, i 1, eq_ix2 i⟩
  rw [Reg1.arr (V3 m ρ) c a b, layer0_norm_relu_entry (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a b]
  rw [show V3 m ρ c main_v59 = val_main_v58 (m ((c : Thread nD τ).loc main_arg0)) (m ((c : Thread nD τ).loc main_arg1)) (m ((c : Thread nD τ).loc main_arg3)) from W3_v59 m ρ c (xw1 m ρ c),
    show V3 m ρ c main_v36 = val_main_v7 (m ((c : Thread nD τ).loc main_arg4)) from W3_v36 m ρ c,
    show V3 m ρ c main_v61 = val_main_v68 (m ((c : Thread nD τ).loc main_arg5)) from W3_v61 m ρ c,
    show V3 m ρ c main_v63 = val_main_v79 (m ((c : Thread nD τ).loc main_arg6)) from W3_v63 m ρ c,
    show V3 m ρ c main_v65 = val_main_v63 (m ((c : Thread nD τ).loc main_arg7)) from W3_v65 m ρ c,
    show V3 m ρ c main_v67 = val_main_v70 (m ((c : Thread nD τ).loc main_arg8)) from W3_v67 m ρ c]
  rfl

/-! ## Layer 2 -/

theorem xw2 : W6 m ρ c (Proc.devRef .tc main_v73) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 2).trans ?_
  funext (i : S100000x128.Idx)
  obtain ⟨a, b, rfl⟩ : ∃ (a : Fin 100000) (b : Fin 128), i = ix2 a b := ⟨i 0, i 1, eq_ix2 i⟩
  have e1 : Reg2.rowsIn (V5 m ρ) c = val_main_v83 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W5_v68 m ρ c).trans (h1 m ρ c)
  have e2 : Reg2.weightIn (V5 m ρ) c = val_main_v85 (m ((c : Thread nD τ).loc main_arg3)) := W5_v70 m ρ c
  rw [Reg2.arr (V5 m ρ) c a b, e1, e2]
  exact (layer1_product_entry (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a b).symm

theorem h2 : W8 m ρ c (Proc.devRef .tc main_v104) = val_main_v163 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 6).trans ?_
  funext (i : S100000x128.Idx)
  obtain ⟨a, b, rfl⟩ : ∃ (a : Fin 100000) (b : Fin 128), i = ix2 a b := ⟨i 0, i 1, eq_ix2 i⟩
  rw [Reg3.arr (V7 m ρ) c a b, layer1_norm_relu_entry (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a b]
  rw [show V7 m ρ c main_v95 = val_main_v138 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from W7_v95 m ρ c (xw2 m ρ c),
    show V7 m ρ c main_v72 = val_main_v87 (m ((c : Thread nD τ).loc main_arg4)) from W7_v72 m ρ c,
    show V7 m ρ c main_v97 = val_main_v148 (m ((c : Thread nD τ).loc main_arg5)) from W7_v97 m ρ c,
    show V7 m ρ c main_v99 = val_main_v159 (m ((c : Thread nD τ).loc main_arg6)) from W7_v99 m ρ c,
    show V7 m ρ c main_v101 = val_main_v143 (m ((c : Thread nD τ).loc main_arg7)) from W7_v101 m ρ c,
    show V7 m ρ c main_v103 = val_main_v150 (m ((c : Thread nD τ).loc main_arg8)) from W7_v103 m ρ c]
  rfl

/-! ## Layer 3 -/

theorem xw3 : W10 m ρ c (Proc.devRef .tc main_v109) = val_main_v168 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  funext (i : S100000x128.Idx)
  obtain ⟨a, b, rfl⟩ : ∃ (a : Fin 100000) (b : Fin 128), i = ix2 a b := ⟨i 0, i 1, eq_ix2 i⟩
  have e1 : Reg4.rowsIn (V9 m ρ) c = val_main_v163 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (W9_v104 m ρ c).trans (h2 m ρ c)
  have e2 : Reg4.weightIn (V9 m ρ) c = val_main_v165 (m ((c : Thread nD τ).loc main_arg3)) := W9_v106 m ρ c
  rw [Reg4.arr (V9 m ρ) c a b, e1, e2]
  exact (layer2_product_entry (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a b).symm

theorem h3 : W12 m ρ c (Proc.devRef .tc main_v132) = val_main_v221 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  funext (i : S100000x128.Idx)
  obtain ⟨a, b, rfl⟩ : ∃ (a : Fin 100000) (b : Fin 128), i = ix2 a b := ⟨i 0, i 1, eq_ix2 i⟩
  rw [Reg5.arr (V11 m ρ) c a b, layer2_bias_entry (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a b]
  rw [show V11 m ρ c main_v131 = val_main_v218 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) from W11_v131 m ρ c (xw3 m ρ c),
    show V11 m ρ c main_v108 = val_main_v167 (m ((c : Thread nD τ).loc main_arg4)) from W11_v108 m ρ c]

/-! ## Pooling and the classifier -/

/-- A vector re-cast as a column, read at row `r`. -/
theorem col_apply (x : IVec S100000 32) (r : Fin 100000) :
    shapeCast S100000x1 x shapeCasts_S100000_S100000x1 (ix2 r (0 : Fin 1)) = x (ix1 r) := by
  refine shapeCast_apply _ _ _ _ ?_
  rw [Shape.rowMajor_val_one, Shape.rowMajor_val_two]
  show r.val = r.val * 1 + 0
  omega

/-- The pooled sums are the reference's scatter-add of the rows by graph id, the graph ids being in range. -/
theorem pooledSums (hb : ∀ r : Fin 100000, 0 ≤ (((m ((c : Thread nD τ).loc main_arg2)) : IVec S100000 32) (ix1 r)).toInt ∧ (((m ((c : Thread nD τ).loc main_arg2)) : IVec S100000 32) (ix1 r)).toInt < 512) :
    W13 m ρ c (Proc.devRef .tc main_v133) = val_main_v229 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 2).trans ?_
  funext (i : S512x128.Idx)
  obtain ⟨g, f, rfl⟩ : ∃ (g : Fin 512) (f : Fin 128), i = ix2 g f := ⟨i 0, i 1, eq_ix2 i⟩
  have e1 : Reg6.ids (V12 m ρ) c = shapeCast S100000x1 (m ((c : Thread nD τ).loc main_arg2)) shapeCasts_S100000_S100000x1 := W12_v4 m ρ c
  have e2 : Reg6.feat (V12 m ρ) c = val_main_v221 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := h3 m ρ c
  have key : (∑ r : Fin 100000, if Reg6.ids (V12 m ρ) c (ix2 r (0 : Fin 1)) = BitVec.ofNat 32 g.val
        then Reg6.feat (V12 m ρ) c (ix2 r f) else (0 : EReal))
      = val_main_v229 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 g f) := by
    rw [e1, e2, pooled_sum_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) hb g f]
    refine Finset.sum_congr rfl fun r _ => ?_
    rw [col_apply]
  exact (Reg6.arr (V12 m ρ) c g f).trans key

/-- The result array is the reference's result stage. -/
theorem result (hb : ∀ r : Fin 100000, 0 ≤ (((m ((c : Thread nD τ).loc main_arg2)) : IVec S100000 32) (ix1 r)).toInt ∧ (((m ((c : Thread nD τ).loc main_arg2)) : IVec S100000 32) (ix1 r)).toInt < 512) :
    W15 m ρ c (Proc.devRef .tc main_v148) = val_main_v247 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W15_arr m ρ c 3).trans ?_
  funext (i : S512x40.Idx)
  obtain ⟨g, j, rfl⟩ : ∃ (g : Fin 512) (j : Fin 40), i = ix2 g j := ⟨i 0, i 1, eq_ix2 i⟩
  have e1 : Reg7.pooled (V14 m ρ) c = val_main_v243 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := W14_v147 m ρ c (pooledSums m ρ c hb)
  have e2 : Reg7.weight (V14 m ρ) c = (m ((c : Thread nD τ).loc main_arg9)) := W14_arg9 m ρ c
  have e3 : Reg7.bias (V14 m ρ) c = (m ((c : Thread nD τ).loc main_arg10)) := W14_arg10 m ρ c
  rw [Reg7.arr (V14 m ρ) c g j, e1, e2, e3]
  exact (head_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) g j).symm

end Cert.KernelIdeal.Bridge

end
-- ==== Proof.lean ====
/-
  A three-layer graph convolution with mean pooling and a linear classifier, computed two ways, gives the same result
  on the extended reals whenever every float input is finite and every graph id lies in [0, 512).

  The kernel's program runs the three matrix products, the two bias + batch-norm + ReLU epilogues, the last bias add, the
  pooling and the classifier as eight tiled regions, and the edge gathers, scatter-adds and the degree normalisation as
  host operations between them; the reference does everything with host operations. Region by region and stretch by
  stretch the buffers of the first program hold the stages of the second:

  * a tiled product of row blocks by a whole weight, accumulated into zero with the operands re-typed to a narrower
    float format, is entry by entry the sum over k of left (a, k) · weight (k, b), which is what the reference's
    `dot_general` is (a change of float format does nothing to an extended real);
  * the gather of product rows by source node, their scaling by the edge normalisation, the scatter-add by destination
    node and the self-loop term are the same host operations in both programs, so they agree as soon as the product
    arrays do (the kernel's program computes the normalisation once, the reference once per layer: one term);
  * an epilogue block is entry by entry max(((agg + bias) − mean) · (gamma · rsqrt(var + ε)) + beta, 0), the same
    expression of the same operands as the reference's, the reciprocal square root being one function on both sides;
  * pooling by a one-hot product — row r contributes to graph g with the factor 1 if its id is g and 0 otherwise,
    accumulated over fifty blocks of 2000 rows from a zero block — is the sum over the rows whose id is g, since
    1 · x = x and 0 · x = 0 for every extended real x; the reference's scatter-add by id, which first wraps a negative
    id by adding 512, is that same sum exactly when no id is negative or beyond 511: the one place where the range of
    the graph ids is used;
  * the node counts, their clamp at one, and the division are shared host operations, and the classifier is again a
    product plus a broadcast bias.

  The three frames are the generated ones (the reference's is its run with the result dropped); the idealization ledger
  is empty.
-/
import proofs.«424323_j36094905155901_2_alg».proof.Defs
import proofs.«424323_j36094905155901_2_alg».proof.Proof.Gen.Kernel
import proofs.«424323_j36094905155901_2_alg».proof.Proof.Gen.Kernel.Skeleton
import proofs.«424323_j36094905155901_2_alg».proof.Proof.Gen.Kernel.Launch
import proofs.«424323_j36094905155901_2_alg».proof.Proof.Gen.Kernel.Points
import proofs.«424323_j36094905155901_2_alg».proof.Proof.Gen.Kernel.Frame
import proofs.«424323_j36094905155901_2_alg».proof.Proof.Gen.KernelIdeal
import proofs.«424323_j36094905155901_2_alg».proof.Proof.Gen.KernelIdeal.Skeleton
import proofs.«424323_j36094905155901_2_alg».proof.Proof.Gen.KernelIdeal.Launch
import proofs.«424323_j36094905155901_2_alg».proof.Proof.Gen.KernelIdeal.Points
import proofs.«424323_j36094905155901_2_alg».proof.Proof.Gen.KernelIdeal.Frame
import proofs.«424323_j36094905155901_2_alg».proof.Proof.Gen.ReferenceIdeal
import proofs.«424323_j36094905155901_2_alg».proof.Proof.Gen.ReferenceIdeal.Run
import proofs.«424323_j36094905155901_2_alg».proof.Proof.Gen.ReferenceIdeal.Read
import proofs.«424323_j36094905155901_2_alg».proof.Proof.Gen.Pre_finite_inputs
import proofs.«424323_j36094905155901_2_alg».proof.Proof.KRun
import proofs.«424323_j36094905155901_2_alg».proof.Proof.PreDecode
import proofs.«424323_j36094905155901_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No idealization rule was applied: nothing to preserve. -/
theorem preserves : Cert.preserves_Kernel_KernelIdeal := trivial

/-- Both programs end with the reference's result stage of the (agreeing) arguments in their result buffers. -/
theorem algebraic : Cert.algebraic_KernelIdeal_ReferenceIdeal := by
  intro m ρ m' ρ' hpre hagree
  have hb : ∀ (c : Dev Cert.KernelIdeal.nD) (r : Fin 100000),
      0 ≤ ((m ((c.tc : Thread Cert.KernelIdeal.nD Cert.KernelIdeal.τ).loc Cert.KernelIdeal.main_arg2) : IVec Cert.KernelIdeal.S100000 32) (ix1 r)).toInt
        ∧ ((m ((c.tc : Thread Cert.KernelIdeal.nD Cert.KernelIdeal.τ).loc Cert.KernelIdeal.main_arg2) : IVec Cert.KernelIdeal.S100000 32) (ix1 r)).toInt < 512 :=
    fun c r => Cert.PreDecode.batch_range _ _ _ _ _ _ _ _ _ _ _ (hpre c) r
  refine ⟨fun c => Cert.ReferenceIdeal.Read.val_main_v247 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Bridge.result m ρ c (hb c)), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v247_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
